-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 1024]⟩ ⟨3, ![2, 512, 1024]⟩ (Layout.meshBlock [2, 4, 4] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![512, 1024]⟩ (Layout.meshBlock [2, 4, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x512x1024 : Shape := ⟨3, ![1, 512, 1024]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel

variable [Facts]

def fn {F : FTy → Type} [FloatOps F] (main_arg0 : FVec F S1x512x1024 .f32) : IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  main_v3
-- ==== Pre_finite_inputs_ReferenceIdeal.lean ====
abbrev S2x512x1024 : Shape := ⟨3, ![2, 512, 1024]⟩
abbrev S_ : Shape := ⟨0, ![]⟩

class Facts : Prop where
  bcast_S_S2x512x1024 : S_.BroadcastsInDim S2x512x1024 (![] : Fin 0 → Fin S2x512x1024.rank)
  reducesTo_S2x512x1024_S_d0_1_2 : S2x512x1024.ReducesTo [0, 1, 2] S_
  h_S_ : 0 < S_.numel

variable [Facts]

def fn {F : FTy → Type} [FloatOps F] (main_arg0 : FVec F S2x512x1024 .f32) : IVec S_ 1 :=
  let main_v0 : FVec F S2x512x1024 .f32 := Host.absf main_arg0
  let main_cst : FVec F S_ .f32 := constant S_ .f32 0x7F800000#32
  let main_v1 : FVec F S2x512x1024 .f32 := broadcastInDim S2x512x1024 ![] bcast_S_S2x512x1024 main_cst
  let main_v2 : IVec S2x512x1024 1 := cmpf .olt main_v0 main_v1
  let main_c : IVec S_ 1 := constantI S_ 1 1#1
  let main_v3 : IVec S_ 1 := (fun x v => Host.reduce IntOp.andi x v reducesTo_S2x512x1024_S_d0_1_2 h_S_) main_v2 main_c
  main_v3
-- ==== Kernel.lean ====
abbrev S1x512x1024 : Shape := ⟨3, ![1, 512, 1024]⟩
abbrev S512x512 : Shape := ⟨2, ![512, 512]⟩
abbrev S_ : Shape := ⟨0, ![]⟩
abbrev S1x512x512 : Shape := ⟨3, ![1, 512, 512]⟩

abbrev nBuf : Space → Nat
  | .hbm => 2
  | .vmem => 3
  | .smem => 0
  | _ => 0

abbrev bufTy : (tb : Table) → Fin (tcTables nBuf tb) → BufTy
  | .hbm, ⟨0, _⟩ => ⟨S1x512x1024, .f32⟩
  | .hbm, ⟨1, _⟩ => ⟨S512x512, .f32⟩
  | .local _ .vmem, ⟨0, _⟩ => ⟨S1x512x1024, .f32⟩
  | .local _ .vmem, ⟨1, _⟩ => ⟨S512x512, .f32⟩
  | .local _ .vmem, ⟨2, _⟩ => ⟨S512x512, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 3 → Nat :=
  let c0_i32_8 : BitVec 32 := 0#32
  let c0_i32_13 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c512_i32 : BitVec 32 := 512#32
  let v17 : BitVec 32 := Scalar.muli v9 c512_i32
  ![0, 0, v17.toNat]
def k0_dev2 (d0 : Dev nD) : Nat :=
  let c0_i32_10 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_9 : BitVec 32 := 16#32
  let v18 : BitVec 32 := Scalar.muli v9 c16_i32_9
  let v19 : BitVec 32 := Scalar.addi c0_i32_10 v18
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_11 : BitVec 32 := 4#32
  let v20 : BitVec 32 := Scalar.muli v5 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_off2 (d0 : Dev nD) : Fin 3 → Nat :=
  let c0 : Index := 0#32
  let c0_24 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_23 : BitVec 32 := 512#32
  let v36 : BitVec 32 := Scalar.muli v2 c512_i32_23
  let v37 : Index := Scalar.indexCast v36
  ![0, 0, v37.toNat]
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  squeezes_S1x512x512_S512x512 : S1x512x512.Squeezes S512x512
  h_S1x512x512 : 0 < S1x512x512.numel
  shapeCasts_S1x512x512_S512x512 : S1x512x512.ShapeCasts S512x512
  inb_S512x512_S512x512_0_0 : ∀ a, (![0, 0] : Fin 2 → Nat) a + S512x512.size a ≤ S512x512.size a
  h_S512x512 : 0 < S512x512.numel
  hcc0_scratch1 : 2 + S_.numel ≤ 4
  hcc0_scratch2 : 3 + S_.numel ≤ 4
  k0_dev1_lt : ∀ d0 : Dev nD, (k0_dev1 d0) < nD
  k0_off1_inb : ∀ d0 : Dev nD, ∀ a, (k0_off1 d0) a + S1x512x512.size a ≤ S1x512x1024.size a
  k0_dev2_lt : ∀ d0 : Dev nD, (k0_dev2 d0) < nD
  k0_off2_inb : ∀ d0 : Dev nD, ∀ a, (k0_off2 d0) a + S1x512x512.size a ≤ S1x512x1024.size a
  hstage0_0 : ∀ j, (stage0_0 j).IsWhole
  hstage0_1 : ∀ j, (stage0_1 j).IsWhole

variable [Facts₀]

abbrev cc0_scratch1 : DmaSems sig S_ := SemArray.consecutive 2 S_ hcc0_scratch1
abbrev cc0_scratch2 : DmaSems sig S_ := SemArray.consecutive 3 S_ hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x512x1024 : Shape := ⟨3, ![2, 512, 1024]⟩
abbrev S_ : Shape := ⟨0, ![]⟩
abbrev S512x1024 : Shape := ⟨2, ![512, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S_, .f32⟩
  | .hbm, ⟨2, _⟩ => ⟨S512x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S2x512x1024_S512x1024_d0 : S2x512x1024.ReducesTo [0] S512x1024
  h_S_ : 0 < S_.numel

variable [Facts₀]

class Facts : Prop extends Facts₀ where

variable [Facts]
-- ==== Proof.Contents.lean ====
/-
  One pair of devices exchanges halves. The mesh is 2 x 4 x 4, numbered row-major, so the device
  whose first coordinate is flipped is the one 16 places away: `peer c = (c + 16) mod 32`, an
  involution. Device `c` stages its slab `x c` (1 x 512 x 1024) whole. It SENDS the 512 columns
  that belong to its peer's block of the result (`sent c`: the slab's slice at the column offset
  the program computes for the transfer, read as a 512 x 512 array) and KEEPS the other 512 columns
  (`kept c`: what its own load reads). Its result is its kept half plus what its peer sent
  (`outOf`), which is the body's one payload at those two values.
-/
import proofs.«900591_g7700000000000592_dist_rs_v7x_xyz2x4x4_x_m512_n512_f32_1_alg».proof.Proof.Gen.KernelIdeal.Skeleton

noncomputable section

namespace Cert.KernelIdeal.Exchange

open Cert.KernelIdeal Cert.KernelIdeal.Gen
open Idealize.ShloMosaic Idealize.ShloMosaic.TcCoe Idealize.SL.Sem

variable {F : FTy → Type} [FloatOps F]

/-! ## The pairing -/

/-- The device with the first mesh coordinate flipped and the other two kept. -/
def peer (c : Dev nD) : Dev nD := ⟨(c.val + 16) % 32, Nat.mod_lt _ (by decide)⟩

theorem peer_peer (c : Dev nD) : peer (peer c) = c := by revert c; decide
theorem peer_ne (c : Dev nD) : peer c ≠ c := by revert c; decide

/-- The pairing as a permutation of the devices. -/
def pairing : Dev nD ≃ Dev nD := ⟨peer, peer, peer_peer, peer_peer⟩

/-- Both device chains of the program — the signal's and the transfer's — name the peer. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

/-! ## The memrefs -/

/-- The staged slab, the staged result, the landing buffer. -/
abbrev xM : Memref sig .tc .vmem S1x512x1024 .f32 := Memref.whole cc0_stg0_0
abbrev oM : Memref sig .tc .vmem S512x512 .f32 := Memref.whole cc0_stg1_0
abbrev rM : Memref sig .tc .vmem S512x512 .f32 := Memref.whole cc0_scratch0

/-- The columns device `c` sends, as a rectangle of its slab, and the transfer's source: that
    rectangle of the staged slab with the leading unit axis dropped. -/
abbrev sendR (c : Dev nD) : Rect S1x512x1024 := Rect.unit (s := S1x512x1024) (k0_off1 c) S1x512x512.size (k0_off1_inb c)
abbrev srcM (c : Dev nD) : Memref sig .tc .vmem S512x512 .f32 :=
  ((xM : Memref sig .tc .vmem S1x512x1024 .f32).slice (sendR c) (fun _ => rfl)).squeeze S512x512 squeezes_S1x512x512_S512x512
/-- The columns device `c` keeps: the rectangle its own load reads. -/
abbrev keepR (c : Dev nD) : Rect S1x512x1024 := Rect.unit (s := S1x512x1024) (k0_off2 c) S1x512x512.size (k0_off2_inb c)

/-! ## The values -/

/-- What device `c` sends, of a slab `f`. -/
def sent (c : Dev nD) (f : (cc0_stg0_0 : Ref sig .tc).ty.Contents (Elt F)) : (cc0_scratch0 : Ref sig .tc).ty.Contents (Elt F) :=
  (srcM c).view.read (Elt F) f

/-- What device `c` keeps, of a slab `f`. -/
def kept (c : Dev nD) (f : (cc0_stg0_0 : Ref sig .tc).ty.Contents (Elt F)) : Vec F S1x512x512 .f32 :=
  (xM : Memref sig .tc .vmem S1x512x1024 .f32).view.readAt (Elt F) (keepR c).toLoadRect f

/-- Device `c`'s result from its own slab `fc` and its peer's slab `fp`: the kept half plus the half the peer sent. -/
def outOf (c : Dev nD) (fc fp : (cc0_stg0_0 : Ref sig .tc).ty.Contents (Elt F)) : (cc0_stg1_0 : Ref sig .tc).ty.Contents (Elt F) :=
  k0_pay1 (kept c fc) (sent (peer c) fp)

variable (m : (ℓ : Loc nD τ sig) → Buf (Elt F) ℓ)

/-- Device `c`'s slab as staged: its argument array read through the one whole block. -/
def xstg (c : Dev nD) : (cc0_stg0_0 : Ref sig .tc).ty.Contents (Elt F) :=
  (win0_0.blk (0 : Fin 1)).view.read (Elt F) (m ((c : Thread nD τ).loc main_arg0))

/-- Device `c`'s result, from the memory the program starts in. -/
def outAt (c : Dev nD) : (cc0_stg1_0 : Ref sig .tc).ty.Contents (Elt F) := outOf c (xstg m c) (xstg m (peer c))

end Cert.KernelIdeal.Exchange

end
-- ==== Proof.Proto.lean ====
/-
  The exchange protocol of one device, under the rounds discipline.

  Every device has three cells, each with ONE duty in round 0 and none after:
  * its barrier cell, one unit, paid by its peer's signal. The payload is what the peer's entry
    tells it: the peer's landing buffer (at whatever contents) and that the peer stands at round 0
    of its receive cell — exactly what a transfer into the peer needs;
  * its send cell, the transfer's credit, paid when the transfer's source has been read: the
    payload is the source's elements back — the sent rectangle of its staged slab, at the slab;
  * its receive cell, the same credit, paid when its peer's transfer has been written: the payload
    is its landing buffer holding WHAT THE PEER SENT (`sent (peer c) (xstg m (peer c))`).
  At launch a device owes its peer's receive cell the credit and its peer's barrier cell a unit.
  Levels: barrier cells 1, receive cells 2, all else 0; a device waits on its barrier owing only a
  receive cell, and on its own transfer cells owing nothing.
-/
import proofs.«900591_g7700000000000592_dist_rs_v7x_xyz2x4x4_x_m512_n512_f32_1_alg».proof.Proof.Contents
import proofs.«900591_g7700000000000592_dist_rs_v7x_xyz2x4x4_x_m512_n512_f32_1_alg».proof.Proof.Gen.KernelIdeal.Launch
import proofs.«900591_g7700000000000592_dist_rs_v7x_xyz2x4x4_x_m512_n512_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the exchange's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def st₀ : MemSt nD τ sig (Elt F) := ⟨m, fun _ => 0, ρ⟩

/-! ## The cells -/

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores as the launch indexes them, and all three of the exchange's. -/
abbrev osem : Fin 2 → SemLoc sig := fun | 0 => .dma sendS.sem | 1 => .dma recvS.sem
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The transfer's credit: the landing buffer's. -/
abbrev N : ℕ := (rM : Memref sig .tc .vmem S512x512 .f32).view.dmaCredit
theorem N_pos : 0 < N := View.dmaCredit_pos _ (by decide)

/-! ## The buffers -/

/-- The landing buffer of device `c` at contents `f`. -/
def scrPts (c : Dev nD) (f : Buf (Elt F) ((rM : Memref sig .tc .vmem S512x512 .f32).view.loc (c : Thread nD τ))) : sProp 𝕄 :=
  (rM : Memref sig .tc .vmem S512x512 .f32).view.loc (c : Thread nD τ) ↦[(rM : Memref sig .tc .vmem S512x512 .f32).view.set]{fullShare} f
/-- The sent rectangle of device `c`'s staged slab, at the slab. -/
def srcPts (c : Dev nD) : sProp 𝕄 :=
  (srcM c).view.loc (c : Thread nD τ) ↦[(srcM c).view.set]{fullShare} xstg m c

omit [FloatOps F] in
instance scrPts_storable (c : Dev nD) (f) : BI.Storable (upEmb : UEmb _ 𝕄) (scrPts (F := F) c f) := by unfold scrPts; infer_instance
omit [FloatOps F] in
instance srcPts_storable (c : Dev nD) : BI.Storable (upEmb : UEmb _ 𝕄) (srcPts (F := F) m c) := by unfold srcPts; infer_instance

omit [FloatOps F] in
theorem scr_set : (rM : Memref sig .tc .vmem S512x512 .f32).view.set = Finset.univ := View.set_whole _
omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]

omit [FloatOps F] in
/-- A transfer from device `c`'s sent rectangle writes the whole landing buffer: it holds what `c` sent. -/
theorem landed_eq (c : Dev nD) (fd : Buf (Elt F) ((rM : Memref sig .tc .vmem S512x512 .f32).view.loc ((peer c : Dev nD) : Thread nD τ)))
    (fs : (cc0_stg0_0 : Ref sig .tc).ty.Contents (Elt F)) :
    (rM : Memref sig .tc .vmem S512x512 .f32).view.write (Elt F) fd ((srcM c).view.read (Elt F) fs) Finset.univ = sent c fs := by
  show (View.whole cc0_scratch0).write (Elt F) fd ((srcM c).view.read (Elt F) fs) Finset.univ = sent c fs
  exact View.write_whole_univ _ _ _

/-! ## The schedule -/

/-- What the peer's signal hands device `c`: the peer's landing buffer, and the peer at round 0 of its receive cell. -/
def barPay (c : Dev nD) : sProp 𝕄 := iprop((∃ f, scrPts (peer c) f) ∗ reached ER (recvCell (peer c)) 0)
/-- What the landing hands device `c`: its landing buffer holding what its peer sent. -/
def recvPay (c : Dev nD) : sProp 𝕄 := scrPts c (sent (peer c) (xstg m (peer c)))
/-- What the source's last read hands device `c` back: the sent rectangle of its slab. -/
def sendPay (c : Dev nD) : sProp 𝕄 := srcPts m c

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round: every barrier, send and receive cell has the one duty `false`, of a unit on a barrier
    cell and of the transfer's credit on the others. -/
def xchg : Rounds.Schedule (GSem nD τ sig) Bool 𝕄 where
  duties g r := if r = 0 ∧ IsBar g then {false} else if r = 0 ∧ IsXfer g then {false} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance xchg_payload_storable (g : GSem nD τ sig) (r : ℕ) (d : Bool) :
    BI.Storable (upEmb : UEmb _ 𝕄) ((xchg (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide
theorem not_bar_send : ¬ IsBar (sendCell c) := fun h => send_ne_bar h.2
theorem not_bar_recv : ¬ IsBar (recvCell c) := fun h => recv_ne_bar h.2

omit [FloatOps F] in
theorem duties_bar : (xchg (F := F) m).duties (barCell c) 0 = {false} := by dsimp only [xchg]; exact if_pos ⟨rfl, rfl, rfl⟩
omit [FloatOps F] in
theorem duties_send : (xchg (F := F) m).duties (sendCell c) 0 = {false} := by
  dsimp only [xchg]; rw [if_neg (fun h => not_bar_send c h.2)]; exact if_pos ⟨rfl, rfl, .inl rfl⟩
omit [FloatOps F] in
theorem duties_recv : (xchg (F := F) m).duties (recvCell c) 0 = {false} := by
  dsimp only [xchg]; rw [if_neg (fun h => not_bar_recv c h.2)]; exact if_pos ⟨rfl, rfl, .inr rfl⟩
omit [FloatOps F] in
theorem duties_later (g : GSem nD τ sig) : ∀ r, 1 ≤ r → (xchg (F := F) m).duties g r = ∅ :=
  fun r hr => by dsimp only [xchg]; rw [if_neg fun h => by omega, if_neg fun h => by omega]

omit [FloatOps F] in
theorem amount_bar (d : Bool) : (xchg (F := F) m).amount (barCell c) 0 d = 1 := by dsimp only [xchg]; exact if_pos rfl
omit [FloatOps F] in
theorem amount_send (d : Bool) : (xchg (F := F) m).amount (sendCell c) 0 d = N := by dsimp only [xchg]; exact if_neg send_ne_bar
omit [FloatOps F] in
theorem amount_recv (d : Bool) : (xchg (F := F) m).amount (recvCell c) 0 d = N := by dsimp only [xchg]; exact if_neg recv_ne_bar

omit [FloatOps F] in
theorem expect_bar : (xchg (F := F) m).expect (barCell c) 0 = 1 := by
  unfold Schedule.expect Schedule.amountOf; rw [duties_bar, Finset.sum_singleton, amount_bar]
omit [FloatOps F] in
theorem expect_send : (xchg (F := F) m).expect (sendCell c) 0 = N := by
  unfold Schedule.expect Schedule.amountOf; rw [duties_send, Finset.sum_singleton, amount_send]
omit [FloatOps F] in
theorem expect_recv : (xchg (F := F) m).expect (recvCell c) 0 = N := by
  unfold Schedule.expect Schedule.amountOf; rw [duties_recv, Finset.sum_singleton, amount_recv]

omit [FloatOps F] in
theorem payload_bar (d : Bool) : (xchg (F := F) m).payload (barCell c) 0 d = barPay c := by dsimp only [xchg]; rw [if_pos rfl]
omit [FloatOps F] in
theorem payload_send (d : Bool) : (xchg (F := F) m).payload (sendCell c) 0 d = sendPay m c := by
  dsimp only [xchg]; rw [if_neg send_ne_bar, if_neg send_ne_recv, if_pos rfl]
omit [FloatOps F] in
theorem payload_recv (d : Bool) : (xchg (F := F) m).payload (recvCell c) 0 d = recvPay m c := by
  dsimp only [xchg]; rw [if_neg recv_ne_bar, if_pos rfl]

omit [FloatOps F] in
/-- The rest of a cell's round, no duty taken: its one payload. -/
theorem rest_bar : bigSep ((xchg (F := F) m).duties (barCell c) 0 \ ∅) (fun d => (xchg (F := F) m).payload (barCell c) 0 d) = barPay c := by
  rw [Finset.sdiff_empty, duties_bar, bigSep_singleton, payload_bar]
omit [FloatOps F] in
theorem rest_send : bigSep ((xchg (F := F) m).duties (sendCell c) 0 \ ∅) (fun d => (xchg (F := F) m).payload (sendCell c) 0 d) = sendPay m c := by
  rw [Finset.sdiff_empty, duties_send, bigSep_singleton, payload_send]
omit [FloatOps F] in
theorem rest_recv : bigSep ((xchg (F := F) m).duties (recvCell c) 0 \ ∅) (fun d => (xchg (F := F) m).payload (recvCell c) 0 d) = recvPay m c := by
  rw [Finset.sdiff_empty, duties_recv, bigSep_singleton, payload_recv]

end Sched

/-! ## What each device owes at launch; the levels -/

/-- Device `c` owes its peer's receive cell the credit and its peer's barrier cell a unit; the signal peels the last summand. -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- On a staging cell a device waits below everything it may owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its peer's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The invariants device `c`'s body opens, under the names `K` the launch allocated them at: its own three,
    its peer's barrier cell (its signal) and its peer's receive cell (its transfer). -/
def invs (K : Dev nD × Fin 3 → ℕ) (c : Dev nD) : sProp 𝕄 :=
  iprop(cellInv ER (xchg m) (K (c, 0)) (barCell c) ∗ cellInv ER (xchg m) (K (c, 1)) (sendCell c) ∗ cellInv ER (xchg m) (K (c, 2)) (recvCell c)
    ∗ cellInv ER (xchg m) (K (peer c, 0)) (barCell (peer c)) ∗ cellInv ER (xchg m) (K (peer c, 2)) (recvCell (peer c)))

instance invs_persistent (K : Dev nD × Fin 3 → ℕ) (c : Dev nD) : BI.Persistent (invs m K c) := by unfold invs; infer_instance

/-- The exchange's ghost state device `c` starts from: the invariants; its positions at round 0 of its three cells;
    round 0 reached on the cells it pays and on its own send and receive cells; the three duty tokens it pays with —
    its peer's barrier duty, its peer's receive duty, its own send duty. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 false ∗ dutyTok ER (recvCell (peer c)) 0 false ∗ dutyTok ER (sendCell c) 0 false)

/-- What device `c`'s body starts from: that at some names, its two credit tokens (its barrier's unit, its receive
    cell's credit) and the level facts. -/
def start (c : Dev nD) : sProp 𝕄 :=
  iprop((∃ K, ghost m K c) ∗ cred (tallyAt (barCell c) () 1) ∗ cred (tallyAt (recvCell c) () N) ∗ levAts L lv)

def Φ₀ (c : Dev nD) : sProp 𝕄 := iprop(start m c ∗ ∃ f, scrPts c f)
/-- After the point: the landing buffer holding what the peer sent, the two own cells at zero, closed. -/
def Φ₁ (c : Dev nD) : sProp 𝕄 := iprop(scrPts c (sent (peer c) (xstg m (peer c))) ∗ semVal (sendCell c) 0 ∗ semVal (recvCell c) 0)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.KernelIdeal.Exchange

end
-- ==== Proof.Body.lean ====
/-
  One device's body, stepped from its starting resources.

  The staged slab is cut by region into the rectangle the transfer sends and the rest, so that the
  transfer's source is held as the source view's own elements; after the send wait returns the
  rectangle the two are joined again and the slab is whole for the load of the kept half.
-/
import proofs.«900591_g7700000000000592_dist_rs_v7x_xyz2x4x4_x_m512_n512_f32_1_alg».proof.Proof.Proto

noncomputable section

namespace Cert.KernelIdeal.Exchange

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables, each payload spelt as the buffer it hands over -/

section Tables
variable (c : Dev nD)

omit [FloatOps F] in
/-- The unit device `c` pays on its peer's barrier cell hands the peer `c`'s own landing buffer and `c`'s round 0. -/
theorem pay_bar_peer (d : Bool) : (xchg (F := F) m).payload (barCell (peer c)) 0 d
    = iprop((∃ f, ((rM : Memref sig .tc .vmem S512x512 .f32).view.loc (c : Thread nD τ) ↦[(rM : Memref sig .tc .vmem S512x512 .f32).view.set]{fullShare} f)) ∗ reached ER (recvCell c) 0) := by
  rw [payload_bar]; unfold barPay scrPts; rw [peer_peer]
omit [FloatOps F] in
theorem pay_bar_own (d : Bool) : (xchg (F := F) m).payload (barCell c) 0 d
    = iprop((∃ f, ((rM : Memref sig .tc .vmem S512x512 .f32).view.loc ((peer c : Dev nD) : Thread nD τ) ↦[(rM : Memref sig .tc .vmem S512x512 .f32).view.set]{fullShare} f)) ∗ reached ER (recvCell (peer c)) 0) := by
  rw [payload_bar]; unfold barPay scrPts; rfl
omit [FloatOps F] in
theorem pay_send (d : Bool) : (xchg (F := F) m).payload (sendCell c) 0 d
    = ((srcM c).view.loc (c : Thread nD τ) ↦[(srcM c).view.set]{fullShare} xstg m c : sProp 𝕄) := by
  rw [payload_send]; rfl
omit [FloatOps F] in
theorem pay_recv_own (d : Bool) : (xchg (F := F) m).payload (recvCell c) 0 d
    = ((rM : Memref sig .tc .vmem S512x512 .f32).view.loc (c : Thread nD τ) ↦[(rM : Memref sig .tc .vmem S512x512 .f32).view.set]{fullShare} sent (peer c) (xstg m (peer c)) : sProp 𝕄) := by
  rw [payload_recv]; rfl

end Tables

attribute [local sl_rounds] duties_bar duties_send duties_recv amount_bar amount_send amount_recv expect_bar expect_send expect_recv
  pay_bar_own pay_send pay_recv_own
attribute [local sl_rounds high] pay_bar_peer
attribute [local sl_canon] dev1_eq dev2_eq

/-! ## The body -/

omit [FloatOps F] in
/-- A staging buffer held whole is held through its memref's view. -/
theorem held_x (c : Dev nD) (f : Buf (Elt F) ((c : Thread nD τ).loc cc0_stg0_0)) :
    ((((c : Thread nD τ).loc cc0_stg0_0) ↦{fullShare} f : sProp 𝕄))
      = (View.loc (c : Thread nD τ) (Memref.whole cc0_stg0_0 : Memref sig .tc .vmem S1x512x1024 .f32).view ↦{fullShare} f : sProp 𝕄) := rfl
omit [FloatOps F] in
theorem held_o (c : Dev nD) (f : Buf (Elt F) ((c : Thread nD τ).loc cc0_stg1_0)) :
    ((((c : Thread nD τ).loc cc0_stg1_0) ↦{fullShare} f : sProp 𝕄))
      = (View.loc (c : Thread nD τ) (Memref.whole cc0_stg1_0 : Memref sig .tc .vmem S512x512 .f32).view ↦{fullShare} f : sProp 𝕄) := rfl

omit [FloatOps F] in
/-- The sent rectangle's elements of the slab are the transfer's source view's own elements, at its own location. -/
theorem held_src (c : Dev nD) (f : Buf (Elt F) ((c : Thread nD τ).loc cc0_stg0_0)) :
    ((View.loc (c : Thread nD τ) (Memref.whole cc0_stg0_0 : Memref sig .tc .vmem S1x512x1024 .f32).view ↦[(srcM c).view.set]{fullShare} f : sProp 𝕄))
      = (View.loc (c : Thread nD τ) (srcM c).view ↦[(srcM c).view.set]{fullShare} f : sProp 𝕄) := rfl

omit [FloatOps F] in
/-- The slab held whole is the sent rectangle (as the source view's own elements) and the rest, and back. -/
theorem slab_cut (c : Dev nD) (f : Buf (Elt F) ((c : Thread nD τ).loc cc0_stg0_0)) :
    (View.loc (c : Thread nD τ) (Memref.whole cc0_stg0_0 : Memref sig .tc .vmem S1x512x1024 .f32).view ↦{fullShare} f : sProp 𝕄)
      ⊣⊢ iprop((View.loc (c : Thread nD τ) (srcM c).view ↦[(srcM c).view.set]{fullShare} f)
          ∗ (View.loc (c : Thread nD τ) (Memref.whole cc0_stg0_0 : Memref sig .tc .vmem S1x512x1024 .f32).view ↦[Finset.univ \ (srcM c).view.set]{fullShare} f)) :=
  pointsTo_split_subset (ℓ := View.loc (c : Thread nD τ) (Memref.whole cc0_stg0_0 : Memref sig .tc .vmem S1x512x1024 .f32).view)
    (I := (srcM c).view.set) (S := Finset.univ) (q := fullShare) (f := f) (Finset.subset_univ _)

omit [FloatOps F] in
theorem hz : (![0, 0] : Fin 2 → Nat) = fun _ => 0 := funext fun a => by fin_cases a <;> rfl

/-- What the one store leaves in the result's staging buffer, whatever it held: the store's rectangle is the whole
    buffer, its payload the kept half of the slab plus the landing buffer read whole — the exchange's value. -/
theorem out_contents (c : Dev nD) (g1 : Buf (Elt F) ((c : Thread nD τ).loc cc0_stg1_0)) :
    (Memref.whole cc0_stg1_0 : Memref sig .tc .vmem S512x512 .f32).view.writes (Elt F) g1
      [⟨Rect.unit (s := S512x512) ![0, 0] S512x512.size inb_S512x512_S512x512_0_0,
        k0_pay1 (View.readAt (Elt F) (Memref.whole cc0_stg0_0 : Memref sig .tc .vmem S1x512x1024 .f32).view (keepR c).toLoadRect (xstg m c))
          (View.readAt (Elt F) (rM : Memref sig .tc .vmem S512x512 .f32).view (Rect.unit (s := S512x512) ![0, 0] S512x512.size inb_S512x512_S512x512_0_0).toLoadRect
            (sent (peer c) (xstg m (peer c))))⟩]
      = outAt m c := by
  have e : View.readAt (Elt F) (rM : Memref sig .tc .vmem S512x512 .f32).view (Rect.unit (s := S512x512) ![0, 0] S512x512.size inb_S512x512_S512x512_0_0).toLoadRect
      (sent (peer c) (xstg m (peer c))) = sent (peer c) (xstg m (peer c)) :=
    Memref.readAt_unit_zero (Elt F) cc0_scratch0 hz _ _
  rw [View.writes_singleton, e]
  exact Memref.write_access_unit_zero_univ (Elt F) cc0_stg1_0 hz _ g1 _

section Body

variable (K : Dev nD × Fin 3 → ℕ)

/-- The addressed transfer at the exchange's cells, to a target device `n` that is the peer (`hn`): the source rectangle is lent to the send
    cell's duty, the peer's landing buffer rewritten goes to the peer's receive duty, and what the device owed the
    peer's receive cell is paid. -/
theorem wp_send_peer (c n : Dev nD) (hn : n = peer c)
    {hsc : (Memref.whole cc0_scratch0 : Memref sig (Dev.tc n : Thread nD τ).2.kind .vmem S512x512 .f32).view.ref.isScScratch = false}
    {hsrc : (srcM c).view.WordExact} {hdst : (Memref.whole cc0_scratch0 : Memref sig .tc .vmem S512x512 .f32).view.WordExact}
    {hsem : DmaTarget.Typed .vmem (.dma recvS.sem) (.remote (Dev.tc n : Thread nD τ) (Memref.whole cc0_scratch0 : Memref sig .tc .vmem S512x512 .f32) (.dma sendS.sem) hsc)}
    {α : Type} {Q : α → sProp 𝕄} {k : PUnit → Prog (TpuEff nD τ sig (Elt F) Λ₀ .tc) α}
    (fn : Buf (Elt F) ((rM : Memref sig .tc .vmem S512x512 .f32).view.loc ((peer c : Dev nD) : Thread nD τ))) (W : Waits sig Unit) :
    iprop(cellInv ER (xchg m) (K (c, 1)) (sendCell c) ∗ cellInv ER (xchg m) (K (peer c, 2)) (recvCell (peer c))
        ∗ (View.loc (c : Thread nD τ) (srcM c).view ↦[(srcM c).view.set]{fullShare} xstg m c)
        ∗ (View.loc ((peer c : Dev nD) : Thread nD τ) (rM : Memref sig .tc .vmem S512x512 .f32).view ↦[(rM : Memref sig .tc .vmem S512x512 .f32).view.set]{fullShare} fn)
        ∗ owes (c : Thread nD τ) (tallyAt (recvCell (peer c)) () N) W
        ∗ dutyTok ER (sendCell c) 0 false ∗ reached ER (sendCell c) 0
        ∗ dutyTok ER (recvCell (peer c)) 0 false ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM c) (.remote (Dev.tc n : Thread nD τ) (Memref.whole cc0_scratch0 : Memref sig .tc .vmem S512x512 .f32) (.dma sendS.sem) hsc) (.dma recvS.sem) hsrc hdst hsem) k) Q) := by
  subst hn
  exact Rounds.wp_send_pointsTo 𝒱₀ ER (xchg m) (c : Thread nD τ) none (κ₁ := K (c, 1)) (κ₂ := K (peer c, 2))
    (r₁ := 0) (r₂ := 0) (d₁ := false) (d₂ := false) (fd := fn)
    (by rw [duties_send]; exact Finset.mem_singleton_self _) (by rw [duties_recv]; exact Finset.mem_singleton_self _)
    () () N rfl (amount_send m c false) (amount_recv m (peer c) false) 0 (by rw [zero_add]) (W := W)
    (by rw [payload_send]; unfold sendPay srcPts; exact BI.Entails.refl _)
    (by rw [payload_recv]; unfold recvPay scrPts; rw [landed_eq, peer_peer])

def bodyPre (c : Dev nD) : sProp 𝕄 :=
  iprop((ghost m K c ∗ cred (tallyAt (barCell c) () 1) ∗ cred (tallyAt (recvCell c) () N) ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m c ∗ (dats m ρ 0 c).owesAt () t₀.succ ∗ stg c cc0_stg0_0 (xstg m c) ∗ stg c cc0_stg1_0 (outAt m c))

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ scrPts
  -- the staged buffers, held through their memrefs' views
  ihave Hx := (Entails.of_eq (held_x (F := F) c _)) $$ Hx
  ihave Hout := (Entails.of_eq (held_o (F := F) c _)) $$ Hout
  -- the slab cut into the rectangle the transfer sends and the rest
  ihave Hx2 := (slab_cut (F := F) c _).1 $$ Hx
  icases Hx2 with ⟨Hsrc, Hrest⟩
  have hmwB := mayWait_bar (F := F) c
  sl_unfold [cc0_body]
  -- the signal to the peer's barrier cell and the wait on one's own: the peer's landing buffer comes with it
  set_option sl_exec.maxSteps 8 in sl_exec (disch := simp only [dev1_eq, dev2_eq])
  -- the transfer of the sent rectangle into the peer's landing buffer
  conv => { arg 2; pattern (Idealize.SL.Sem.wp _ _ _ _); arg 4; simp only [Prog.lift, Prog.bind_op, Prog.bind_ret, Prog.pure_eq_ret] }
  iapply (wp_send_peer m K c _ (dev2_eq c) HatB_pay1_v _) $$ [Hsrc HatB_pay1 HO HtS HtVP]
  · isplitr; · iexact HIsnd
    isplitr; · iexact HIrcvP
    isplitl [Hsrc]; · iexact Hsrc
    isplitl [HatB_pay1]; · iexact HatB_pay1
    isplitl [HO]; · iexact HO
    isplitl [HtS]; · iexact HtS
    isplitr; · iexact HrS
    isplitl [HtVP]; · iexact HtVP
    iexact HrVP
  iintro ⟨HcS, HO⟩
  -- the waits on the send cell (the rectangle back) and on the receive cell (what the peer sent)
  sl_exec
  -- the rectangle and the rest joined: the slab whole again
  ihave Hx := (slab_cut (F := F) c _).2 $$ [HatS_pay1 Hrest]
  · isplitl [HatS_pay1] <;> iassumption
  -- the two own cells have no later duty: closed, their counters are the device's again, at zero
  imod (Rounds.cell_close ER (xchg m) (Set.mem_univ (K (c, 1))) (fun h => h) (R := 1) (duties_later m (sendCell c))) $$ [HatS] with HzS
  · isplitr; · iexact HIsnd
    iexact HatS
  imod (Rounds.cell_close ER (xchg m) (Set.mem_univ (K (c, 2))) (fun h => h) (R := 1) (duties_later m (recvCell c))) $$ [HatV] with HzV
  · isplitr; · iexact HIrcv
    iexact HatV
  -- the kept half, the landing buffer, the sum stored
  sl_exec
  sl_step
  iapply Hk
  unfold bodyPost Φ₁ Dat.owesAt Pipeline.owesWithin
  rw [show (dats m ρ 0 c).owed t₀.succ = 0 from rfl]
  isplitl [HatV_pay1 HzS HzV]
  · isplitl [HatV_pay1]; · unfold scrPts; iexact HatV_pay1
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    ihave Hx' := (Entails.of_eq (held_x (F := F) c _).symm) $$ Hx
    iexact Hx'
  iexists _; isplitr; · (ipureintro; exact out_contents m c g1)
  ihave Hout' := (Entails.of_eq (held_o (F := F) c _).symm) $$ Hout
  iexact Hout'

set_option maxRecDepth 4000 in
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The body obligation on device `c`, at the one point. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Body

end Cert.KernelIdeal.Exchange

end
-- ==== Proof.Launch.lean ====
/-
  The launch: every device's body obligation becomes the run of the program on all 32 devices.

  The exchange's ghost state is made for all devices under one update: each device's three counters
  at zero become its three cells' invariants, and the duty tokens are dealt across the pairing — the
  token of a device's barrier duty and of its receive duty go to its peer, who pays them. The launch
  credit on a barrier cell is the one unit its peer owes it, on a receive cell the transfer's credit
  its peer owes it. The run's post names every windowed array's final contents.
-/
import proofs.«900591_g7700000000000592_dist_rs_v7x_xyz2x4x4_x_m512_n512_f32_1_alg».proof.Proof.Body

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xCells : Finset (GSem nD τ sig) := Finset.univ.map ⟨kcell, kcell_injective⟩

/-- A device's own cells' duty tokens as minted: (device, which cell). -/
abbrev tokOf (cj : Dev nD × Fin 3) : GSem nD τ sig × ℕ × Bool := (kcell cj, 0, false)
theorem tokOf_injective : Function.Injective (tokOf : Dev nD × Fin 3 → GSem nD τ sig × ℕ × Bool) :=
  fun a b h => kcell_injective (congrArg Prod.fst h)
def xToks : Finset (GSem nD τ sig × ℕ × Bool) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 :=
  iprop(dutyTok ER (barCell c) 0 false ∗ dutyTok ER (sendCell c) 0 false ∗ dutyTok ER (recvCell c) 0 false)

/-- What the launch element deals device `c`. -/
def G (c : Dev nD) : sProp 𝕄 :=
  iprop((bigSep Finset.univ fun k : Fin 3 => roundState ER (xchg m) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 3 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin3]; rfl
  iintro HX
  imod (Rounds.fund ER (xchg m) xCells xToks) $$ HX with ⟨Hst, Hr, Hat, Htok⟩
  imodintro
  ihave Hst' := (Entails.of_eq (hX fun g => roundState ER (xchg m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (xchg m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (xchg m) (kcell (c, k)) 0)
      ⊢ (|={Set.univ}=> bigSep Finset.univ fun k => iprop(∃ κ : ℕ, cellInv ER (xchg m) κ (kcell (c, k))) : sProp 𝕄) from by
        rw [← bigSep_sep']
        exact (bigSep_mono fun k _ => (Rounds.body_intro ER (xchg m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (xchg m) (K ck) (kcell ck))
    ∗ bigSep Finset.univ fun ck : Dev nD × Fin 3 => reached ER (kcell ck) 0)

instance records_persistent (K : Dev nD × Fin 3 → ℕ) : BI.Persistent (records m K) := by unfold records; infer_instance

omit [FloatOps F] in
theorem inv_at (K : Dev nD × Fin 3 → ℕ) (ck : Dev nD × Fin 3) :
    (bigSep Finset.univ fun ck : Dev nD × Fin 3 => (cellInv ER (xchg m) (K ck) (kcell ck) : sProp 𝕄)) ⊢ cellInv ER (xchg m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 false ∗ dutyTok ER (recvCell (peer c)) 0 false ∗ dutyTok ER (sendCell c) 0 false)
def linear (c : Dev nD) : sProp 𝕄 :=
  iprop((atPos ER (barCell c) 0 ∅ 0 ∗ atPos ER (sendCell c) 0 ∅ 0 ∗ atPos ER (recvCell c) 0 ∅ 0) ∗ payToks c)

omit [FloatOps F] in
theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across the pairing: a device's barrier token and receive token go to its peer. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 false : sProp 𝕄)),
    bigSep_univ_equiv pairing (fun c : Dev nD => (dutyTok ER (recvCell c) 0 false : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (xchg m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (xchg m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (xchg m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

omit [FloatOps F] in
/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if `d` is `c`'s peer. -/
theorem owed_bar (d c : Dev nD) : O₀ d (barCell c) () = if d = peer c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀
  rw [Pi.add_apply, Finsupp.add_apply, tallyAt_apply,
    tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### What the launch hands each device, and what the device hands back -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m c from rfl, scopedRest0_eq, ownSems0_eq]
  unfold Φ₁
  iintro ⟨Hr, HzS, HzV⟩
  isplitr; · iempintro
  isplitl [HzS HzV]
  · isplitl [HzS] <;> iassumption
  iexists (sent (peer c) (xstg m (peer c))); rw [← scrPts_eq]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of 32 devices, for any float values, from any memory with zero counters: every weakly fair
    execution of the program — the pairs handshaking on the barrier semaphore, then exchanging halves — terminates,
    and every final state has each device's windowed arrays at the computed contents. -/
theorem run_main : θ_run defs (onTc (τ := τ) (main (F := F))) (st₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Exchange.run_main' depends on axioms: [propext, Classical.choice, Quot.sound] -/
#guard_msgs in #print axioms run_main

/-! ### The final arrays -/

/-- The argument array after the run holds what it held. -/
theorem finalA_x (c : Dev nD) : finalA m ρ c (0 : Fin 2) = (st₀ m ρ).mem (win0_0.arr.view.loc (c : Thread nD τ)) :=
  (dats (F := F) m ρ 0 c).arrAt_in (0 : Fin 2) rfl _

end Cert.KernelIdeal.Exchange

end
-- ==== Proof.Finals.lean ====
/-
  The windowed arrays after the one point of the grid. The input array is never written back: it
  still holds the launch contents. The output window's one block is the whole result array and is
  written back at the point, over every element: the result array then holds exactly what the
  body left, the device's kept half plus the half its peer sent.
-/
import proofs.«900591_g7700000000000592_dist_rs_v7x_xyz2x4x4_x_m512_n512_f32_1_alg».proof.Proof.Proto
import Idealize.ShloMosaic.Lib.Pipeline.Cells

noncomputable section

namespace Cert.KernelIdeal.Exchange

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- The input array after every point: the launch contents. -/
theorem arrAt_x (c : Dev nD) : (dats m ρ 0 c).arrAt (0 : Fin 2) cfg0.N = m ((c : Thread nD τ).loc main_arg0) := by
  rw [Dat.arrAt_in (dats m ρ 0 c) (0 : Fin 2) rfl]
  rfl

/-- The result array after the one point: the body's result, written over all of it. -/
theorem arrAt_out (c : Dev nD) : (dats m ρ 0 c).arrAt (1 : Fin 2) cfg0.N = outAt m c := by
  have h1 : (dats m ρ 0 c).arrAt (1 : Fin 2) 1 = outAt m c := by
    unfold Dat.arrAt
    rw [dif_pos (show 0 < cfg0.N by rw [cfg0_N]; exact Nat.one_pos), if_pos (flush0_1 _)]
    exact Memref.write_access_unit_zero_univ (Elt F) main_v1 (funext fun a => Nat.zero_mul _) _ _ _
  rw [cfg0_N]
  exact h1

end Cert.KernelIdeal.Exchange

end

/-- info: 'Cert.KernelIdeal.Exchange.arrAt_x' depends on axioms: [propext, Classical.choice, Quot.sound] -/
#guard_msgs in #print axioms Cert.KernelIdeal.Exchange.arrAt_x
/-- info: 'Cert.KernelIdeal.Exchange.arrAt_out' depends on axioms: [propext, Classical.choice, Quot.sound] -/
#guard_msgs in #print axioms Cert.KernelIdeal.Exchange.arrAt_out
-- ==== Proof.Run.lean ====
/-
  The run with its post read at the program's own arrays: on every device the result array ends at the
  exchange's value `outAt m c` — the kept half of the device's slab plus the half its peer sent — and
  the argument array ends as it began. The one point's write-back is the whole result block, and an
  input window's array is never written.
-/
import proofs.«900591_g7700000000000592_dist_rs_v7x_xyz2x4x4_x_m512_n512_f32_1_alg».proof.Proof.Launch
import proofs.«900591_g7700000000000592_dist_rs_v7x_xyz2x4x4_x_m512_n512_f32_1_alg».proof.Proof.Finals

noncomputable section

namespace Cert.KernelIdeal.Exchange

open Cert.KernelIdeal Cert.KernelIdeal.Gen
open Idealize.ShloMosaic Idealize.ShloMosaic.TcCoe Idealize.SL.Sem

variable {F : FTy → Type} [FloatOps F]

/-- From any memory with zero counters every weakly fair execution on the 32 devices terminates, faults nowhere,
    and ends with each device's result at `outAt m c` and its argument unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  (θ_run defs _ _).mono (fun _ h c => ⟨(h c (1 : Fin 2)).trans (arrAt_out m ρ c), (h c (0 : Fin 2)).trans (arrAt_x m ρ c)⟩)
    (run_main m ρ)

/-- info: 'Cert.KernelIdeal.Exchange.run' depends on axioms: [propext, Classical.choice, Quot.sound] -/
#guard_msgs in #print axioms run

end Cert.KernelIdeal.Exchange

end
-- ==== Proof.WordContents.lean ====
/-
  One pair of devices exchanges halves. The mesh is 2 x 4 x 4, numbered row-major, so the device
  whose first coordinate is flipped is the one 16 places away: `peer c = (c + 16) mod 32`, an
  involution. Device `c` stages its slab `x c` (1 x 512 x 1024) whole. It SENDS the 512 columns
  that belong to its peer's block of the result (`sent c`: the slab's slice at the column offset
  the program computes for the transfer, read as a 512 x 512 array) and KEEPS the other 512 columns
  (`kept c`: what its own load reads). Its result is its kept half plus what its peer sent
  (`outOf`), which is the body's one payload at those two values.
-/
import proofs.«900591_g7700000000000592_dist_rs_v7x_xyz2x4x4_x_m512_n512_f32_1_alg».proof.Proof.Gen.Kernel.Skeleton

noncomputable section

namespace Cert.Kernel.Exchange

open Cert.Kernel Cert.Kernel.Gen
open Idealize.ShloMosaic Idealize.ShloMosaic.TcCoe Idealize.SL.Sem

variable {F : FTy → Type} [FloatOps F]

/-! ## The pairing -/

/-- The device with the first mesh coordinate flipped and the other two kept. -/
def peer (c : Dev nD) : Dev nD := ⟨(c.val + 16) % 32, Nat.mod_lt _ (by decide)⟩

theorem peer_peer (c : Dev nD) : peer (peer c) = c := by revert c; decide
theorem peer_ne (c : Dev nD) : peer c ≠ c := by revert c; decide

/-- The pairing as a permutation of the devices. -/
def pairing : Dev nD ≃ Dev nD := ⟨peer, peer, peer_peer, peer_peer⟩

/-- Both device chains of the program — the signal's and the transfer's — name the peer. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

/-! ## The memrefs -/

/-- The staged slab, the staged result, the landing buffer. -/
abbrev xM : Memref sig .tc .vmem S1x512x1024 .f32 := Memref.whole cc0_stg0_0
abbrev oM : Memref sig .tc .vmem S512x512 .f32 := Memref.whole cc0_stg1_0
abbrev rM : Memref sig .tc .vmem S512x512 .f32 := Memref.whole cc0_scratch0

/-- The columns device `c` sends, as a rectangle of its slab, and the transfer's source: that
    rectangle of the staged slab with the leading unit axis dropped. -/
abbrev sendR (c : Dev nD) : Rect S1x512x1024 := Rect.unit (s := S1x512x1024) (k0_off1 c) S1x512x512.size (k0_off1_inb c)
abbrev srcM (c : Dev nD) : Memref sig .tc .vmem S512x512 .f32 :=
  ((xM : Memref sig .tc .vmem S1x512x1024 .f32).slice (sendR c) (fun _ => rfl)).squeeze S512x512 squeezes_S1x512x512_S512x512
/-- The columns device `c` keeps: the rectangle its own load reads. -/
abbrev keepR (c : Dev nD) : Rect S1x512x1024 := Rect.unit (s := S1x512x1024) (k0_off2 c) S1x512x512.size (k0_off2_inb c)

/-! ## The values -/

/-- What device `c` sends, of a slab `f`. -/
def sent (c : Dev nD) (f : (cc0_stg0_0 : Ref sig .tc).ty.Contents (Elt F)) : (cc0_scratch0 : Ref sig .tc).ty.Contents (Elt F) :=
  (srcM c).view.read (Elt F) f

/-- What device `c` keeps, of a slab `f`. -/
def kept (c : Dev nD) (f : (cc0_stg0_0 : Ref sig .tc).ty.Contents (Elt F)) : Vec F S1x512x512 .f32 :=
  (xM : Memref sig .tc .vmem S1x512x1024 .f32).view.readAt (Elt F) (keepR c).toLoadRect f

/-- Device `c`'s result from its own slab `fc` and its peer's slab `fp`: the kept half plus the half the peer sent. -/
def outOf (c : Dev nD) (fc fp : (cc0_stg0_0 : Ref sig .tc).ty.Contents (Elt F)) : (cc0_stg1_0 : Ref sig .tc).ty.Contents (Elt F) :=
  k0_pay1 (kept c fc) (sent (peer c) fp)

variable (m : (ℓ : Loc nD τ sig) → Buf (Elt F) ℓ)

/-- Device `c`'s slab as staged: its argument array read through the one whole block. -/
def xstg (c : Dev nD) : (cc0_stg0_0 : Ref sig .tc).ty.Contents (Elt F) :=
  (win0_0.blk (0 : Fin 1)).view.read (Elt F) (m ((c : Thread nD τ).loc main_arg0))

/-- Device `c`'s result, from the memory the program starts in. -/
def outAt (c : Dev nD) : (cc0_stg1_0 : Ref sig .tc).ty.Contents (Elt F) := outOf c (xstg m c) (xstg m (peer c))

end Cert.Kernel.Exchange

end
-- ==== Proof.WordProto.lean ====
/-
  The exchange protocol of one device, under the rounds discipline.

  Every device has three cells, each with ONE duty in round 0 and none after:
  * its barrier cell, one unit, paid by its peer's signal. The payload is what the peer's entry
    tells it: the peer's landing buffer (at whatever contents) and that the peer stands at round 0
    of its receive cell — exactly what a transfer into the peer needs;
  * its send cell, the transfer's credit, paid when the transfer's source has been read: the
    payload is the source's elements back — the sent rectangle of its staged slab, at the slab;
  * its receive cell, the same credit, paid when its peer's transfer has been written: the payload
    is its landing buffer holding WHAT THE PEER SENT (`sent (peer c) (xstg m (peer c))`).
  At launch a device owes its peer's receive cell the credit and its peer's barrier cell a unit.
  Levels: barrier cells 1, receive cells 2, all else 0; a device waits on its barrier owing only a
  receive cell, and on its own transfer cells owing nothing.
-/
import proofs.«900591_g7700000000000592_dist_rs_v7x_xyz2x4x4_x_m512_n512_f32_1_alg».proof.Proof.WordContents
import proofs.«900591_g7700000000000592_dist_rs_v7x_xyz2x4x4_x_m512_n512_f32_1_alg».proof.Proof.Gen.Kernel.Launch
import proofs.«900591_g7700000000000592_dist_rs_v7x_xyz2x4x4_x_m512_n512_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.Exchange

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the exchange's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def st₀ : MemSt nD τ sig (Elt F) := ⟨m, fun _ => 0, ρ⟩

/-! ## The cells -/

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores as the launch indexes them, and all three of the exchange's. -/
abbrev osem : Fin 2 → SemLoc sig := fun | 0 => .dma sendS.sem | 1 => .dma recvS.sem
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The transfer's credit: the landing buffer's. -/
abbrev N : ℕ := (rM : Memref sig .tc .vmem S512x512 .f32).view.dmaCredit
theorem N_pos : 0 < N := View.dmaCredit_pos _ (by decide)

/-! ## The buffers -/

/-- The landing buffer of device `c` at contents `f`. -/
def scrPts (c : Dev nD) (f : Buf (Elt F) ((rM : Memref sig .tc .vmem S512x512 .f32).view.loc (c : Thread nD τ))) : sProp 𝕄 :=
  (rM : Memref sig .tc .vmem S512x512 .f32).view.loc (c : Thread nD τ) ↦[(rM : Memref sig .tc .vmem S512x512 .f32).view.set]{fullShare} f
/-- The sent rectangle of device `c`'s staged slab, at the slab. -/
def srcPts (c : Dev nD) : sProp 𝕄 :=
  (srcM c).view.loc (c : Thread nD τ) ↦[(srcM c).view.set]{fullShare} xstg m c

omit [FloatOps F] in
instance scrPts_storable (c : Dev nD) (f) : BI.Storable (upEmb : UEmb _ 𝕄) (scrPts (F := F) c f) := by unfold scrPts; infer_instance
omit [FloatOps F] in
instance srcPts_storable (c : Dev nD) : BI.Storable (upEmb : UEmb _ 𝕄) (srcPts (F := F) m c) := by unfold srcPts; infer_instance

omit [FloatOps F] in
theorem scr_set : (rM : Memref sig .tc .vmem S512x512 .f32).view.set = Finset.univ := View.set_whole _
omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]

omit [FloatOps F] in
/-- A transfer from device `c`'s sent rectangle writes the whole landing buffer: it holds what `c` sent. -/
theorem landed_eq (c : Dev nD) (fd : Buf (Elt F) ((rM : Memref sig .tc .vmem S512x512 .f32).view.loc ((peer c : Dev nD) : Thread nD τ)))
    (fs : (cc0_stg0_0 : Ref sig .tc).ty.Contents (Elt F)) :
    (rM : Memref sig .tc .vmem S512x512 .f32).view.write (Elt F) fd ((srcM c).view.read (Elt F) fs) Finset.univ = sent c fs := by
  show (View.whole cc0_scratch0).write (Elt F) fd ((srcM c).view.read (Elt F) fs) Finset.univ = sent c fs
  exact View.write_whole_univ _ _ _

/-! ## The schedule -/

/-- What the peer's signal hands device `c`: the peer's landing buffer, and the peer at round 0 of its receive cell. -/
def barPay (c : Dev nD) : sProp 𝕄 := iprop((∃ f, scrPts (peer c) f) ∗ reached ER (recvCell (peer c)) 0)
/-- What the landing hands device `c`: its landing buffer holding what its peer sent. -/
def recvPay (c : Dev nD) : sProp 𝕄 := scrPts c (sent (peer c) (xstg m (peer c)))
/-- What the source's last read hands device `c` back: the sent rectangle of its slab. -/
def sendPay (c : Dev nD) : sProp 𝕄 := srcPts m c

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round: every barrier, send and receive cell has the one duty `false`, of a unit on a barrier
    cell and of the transfer's credit on the others. -/
def xchg : Rounds.Schedule (GSem nD τ sig) Bool 𝕄 where
  duties g r := if r = 0 ∧ IsBar g then {false} else if r = 0 ∧ IsXfer g then {false} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance xchg_payload_storable (g : GSem nD τ sig) (r : ℕ) (d : Bool) :
    BI.Storable (upEmb : UEmb _ 𝕄) ((xchg (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide
theorem not_bar_send : ¬ IsBar (sendCell c) := fun h => send_ne_bar h.2
theorem not_bar_recv : ¬ IsBar (recvCell c) := fun h => recv_ne_bar h.2

omit [FloatOps F] in
theorem duties_bar : (xchg (F := F) m).duties (barCell c) 0 = {false} := by dsimp only [xchg]; exact if_pos ⟨rfl, rfl, rfl⟩
omit [FloatOps F] in
theorem duties_send : (xchg (F := F) m).duties (sendCell c) 0 = {false} := by
  dsimp only [xchg]; rw [if_neg (fun h => not_bar_send c h.2)]; exact if_pos ⟨rfl, rfl, .inl rfl⟩
omit [FloatOps F] in
theorem duties_recv : (xchg (F := F) m).duties (recvCell c) 0 = {false} := by
  dsimp only [xchg]; rw [if_neg (fun h => not_bar_recv c h.2)]; exact if_pos ⟨rfl, rfl, .inr rfl⟩
omit [FloatOps F] in
theorem duties_later (g : GSem nD τ sig) : ∀ r, 1 ≤ r → (xchg (F := F) m).duties g r = ∅ :=
  fun r hr => by dsimp only [xchg]; rw [if_neg fun h => by omega, if_neg fun h => by omega]

omit [FloatOps F] in
theorem amount_bar (d : Bool) : (xchg (F := F) m).amount (barCell c) 0 d = 1 := by dsimp only [xchg]; exact if_pos rfl
omit [FloatOps F] in
theorem amount_send (d : Bool) : (xchg (F := F) m).amount (sendCell c) 0 d = N := by dsimp only [xchg]; exact if_neg send_ne_bar
omit [FloatOps F] in
theorem amount_recv (d : Bool) : (xchg (F := F) m).amount (recvCell c) 0 d = N := by dsimp only [xchg]; exact if_neg recv_ne_bar

omit [FloatOps F] in
theorem expect_bar : (xchg (F := F) m).expect (barCell c) 0 = 1 := by
  unfold Schedule.expect Schedule.amountOf; rw [duties_bar, Finset.sum_singleton, amount_bar]
omit [FloatOps F] in
theorem expect_send : (xchg (F := F) m).expect (sendCell c) 0 = N := by
  unfold Schedule.expect Schedule.amountOf; rw [duties_send, Finset.sum_singleton, amount_send]
omit [FloatOps F] in
theorem expect_recv : (xchg (F := F) m).expect (recvCell c) 0 = N := by
  unfold Schedule.expect Schedule.amountOf; rw [duties_recv, Finset.sum_singleton, amount_recv]

omit [FloatOps F] in
theorem payload_bar (d : Bool) : (xchg (F := F) m).payload (barCell c) 0 d = barPay c := by dsimp only [xchg]; rw [if_pos rfl]
omit [FloatOps F] in
theorem payload_send (d : Bool) : (xchg (F := F) m).payload (sendCell c) 0 d = sendPay m c := by
  dsimp only [xchg]; rw [if_neg send_ne_bar, if_neg send_ne_recv, if_pos rfl]
omit [FloatOps F] in
theorem payload_recv (d : Bool) : (xchg (F := F) m).payload (recvCell c) 0 d = recvPay m c := by
  dsimp only [xchg]; rw [if_neg recv_ne_bar, if_pos rfl]

omit [FloatOps F] in
/-- The rest of a cell's round, no duty taken: its one payload. -/
theorem rest_bar : bigSep ((xchg (F := F) m).duties (barCell c) 0 \ ∅) (fun d => (xchg (F := F) m).payload (barCell c) 0 d) = barPay c := by
  rw [Finset.sdiff_empty, duties_bar, bigSep_singleton, payload_bar]
omit [FloatOps F] in
theorem rest_send : bigSep ((xchg (F := F) m).duties (sendCell c) 0 \ ∅) (fun d => (xchg (F := F) m).payload (sendCell c) 0 d) = sendPay m c := by
  rw [Finset.sdiff_empty, duties_send, bigSep_singleton, payload_send]
omit [FloatOps F] in
theorem rest_recv : bigSep ((xchg (F := F) m).duties (recvCell c) 0 \ ∅) (fun d => (xchg (F := F) m).payload (recvCell c) 0 d) = recvPay m c := by
  rw [Finset.sdiff_empty, duties_recv, bigSep_singleton, payload_recv]

end Sched

/-! ## What each device owes at launch; the levels -/

/-- Device `c` owes its peer's receive cell the credit and its peer's barrier cell a unit; the signal peels the last summand. -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- On a staging cell a device waits below everything it may owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its peer's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The invariants device `c`'s body opens, under the names `K` the launch allocated them at: its own three,
    its peer's barrier cell (its signal) and its peer's receive cell (its transfer). -/
def invs (K : Dev nD × Fin 3 → ℕ) (c : Dev nD) : sProp 𝕄 :=
  iprop(cellInv ER (xchg m) (K (c, 0)) (barCell c) ∗ cellInv ER (xchg m) (K (c, 1)) (sendCell c) ∗ cellInv ER (xchg m) (K (c, 2)) (recvCell c)
    ∗ cellInv ER (xchg m) (K (peer c, 0)) (barCell (peer c)) ∗ cellInv ER (xchg m) (K (peer c, 2)) (recvCell (peer c)))

instance invs_persistent (K : Dev nD × Fin 3 → ℕ) (c : Dev nD) : BI.Persistent (invs m K c) := by unfold invs; infer_instance

/-- The exchange's ghost state device `c` starts from: the invariants; its positions at round 0 of its three cells;
    round 0 reached on the cells it pays and on its own send and receive cells; the three duty tokens it pays with —
    its peer's barrier duty, its peer's receive duty, its own send duty. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 false ∗ dutyTok ER (recvCell (peer c)) 0 false ∗ dutyTok ER (sendCell c) 0 false)

/-- What device `c`'s body starts from: that at some names, its two credit tokens (its barrier's unit, its receive
    cell's credit) and the level facts. -/
def start (c : Dev nD) : sProp 𝕄 :=
  iprop((∃ K, ghost m K c) ∗ cred (tallyAt (barCell c) () 1) ∗ cred (tallyAt (recvCell c) () N) ∗ levAts L lv)

def Φ₀ (c : Dev nD) : sProp 𝕄 := iprop(start m c ∗ ∃ f, scrPts c f)
/-- After the point: the landing buffer holding what the peer sent, the two own cells at zero, closed. -/
def Φ₁ (c : Dev nD) : sProp 𝕄 := iprop(scrPts c (sent (peer c) (xstg m (peer c))) ∗ semVal (sendCell c) 0 ∗ semVal (recvCell c) 0)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.Kernel.Exchange

end
-- ==== Proof.WordBody.lean ====
/-
  One device's body, stepped from its starting resources.

  The staged slab is cut by region into the rectangle the transfer sends and the rest, so that the
  transfer's source is held as the source view's own elements; after the send wait returns the
  rectangle the two are joined again and the slab is whole for the load of the kept half.
-/
import proofs.«900591_g7700000000000592_dist_rs_v7x_xyz2x4x4_x_m512_n512_f32_1_alg».proof.Proof.WordProto

noncomputable section

namespace Cert.Kernel.Exchange

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables, each payload spelt as the buffer it hands over -/

section Tables
variable (c : Dev nD)

omit [FloatOps F] in
/-- The unit device `c` pays on its peer's barrier cell hands the peer `c`'s own landing buffer and `c`'s round 0. -/
theorem pay_bar_peer (d : Bool) : (xchg (F := F) m).payload (barCell (peer c)) 0 d
    = iprop((∃ f, ((rM : Memref sig .tc .vmem S512x512 .f32).view.loc (c : Thread nD τ) ↦[(rM : Memref sig .tc .vmem S512x512 .f32).view.set]{fullShare} f)) ∗ reached ER (recvCell c) 0) := by
  rw [payload_bar]; unfold barPay scrPts; rw [peer_peer]
omit [FloatOps F] in
theorem pay_bar_own (d : Bool) : (xchg (F := F) m).payload (barCell c) 0 d
    = iprop((∃ f, ((rM : Memref sig .tc .vmem S512x512 .f32).view.loc ((peer c : Dev nD) : Thread nD τ) ↦[(rM : Memref sig .tc .vmem S512x512 .f32).view.set]{fullShare} f)) ∗ reached ER (recvCell (peer c)) 0) := by
  rw [payload_bar]; unfold barPay scrPts; rfl
omit [FloatOps F] in
theorem pay_send (d : Bool) : (xchg (F := F) m).payload (sendCell c) 0 d
    = ((srcM c).view.loc (c : Thread nD τ) ↦[(srcM c).view.set]{fullShare} xstg m c : sProp 𝕄) := by
  rw [payload_send]; rfl
omit [FloatOps F] in
theorem pay_recv_own (d : Bool) : (xchg (F := F) m).payload (recvCell c) 0 d
    = ((rM : Memref sig .tc .vmem S512x512 .f32).view.loc (c : Thread nD τ) ↦[(rM : Memref sig .tc .vmem S512x512 .f32).view.set]{fullShare} sent (peer c) (xstg m (peer c)) : sProp 𝕄) := by
  rw [payload_recv]; rfl

end Tables

attribute [local sl_rounds] duties_bar duties_send duties_recv amount_bar amount_send amount_recv expect_bar expect_send expect_recv
  pay_bar_own pay_send pay_recv_own
attribute [local sl_rounds high] pay_bar_peer
attribute [local sl_canon] dev1_eq dev2_eq

/-! ## The body -/

omit [FloatOps F] in
/-- A staging buffer held whole is held through its memref's view. -/
theorem held_x (c : Dev nD) (f : Buf (Elt F) ((c : Thread nD τ).loc cc0_stg0_0)) :
    ((((c : Thread nD τ).loc cc0_stg0_0) ↦{fullShare} f : sProp 𝕄))
      = (View.loc (c : Thread nD τ) (Memref.whole cc0_stg0_0 : Memref sig .tc .vmem S1x512x1024 .f32).view ↦{fullShare} f : sProp 𝕄) := rfl
omit [FloatOps F] in
theorem held_o (c : Dev nD) (f : Buf (Elt F) ((c : Thread nD τ).loc cc0_stg1_0)) :
    ((((c : Thread nD τ).loc cc0_stg1_0) ↦{fullShare} f : sProp 𝕄))
      = (View.loc (c : Thread nD τ) (Memref.whole cc0_stg1_0 : Memref sig .tc .vmem S512x512 .f32).view ↦{fullShare} f : sProp 𝕄) := rfl

omit [FloatOps F] in
/-- The sent rectangle's elements of the slab are the transfer's source view's own elements, at its own location. -/
theorem held_src (c : Dev nD) (f : Buf (Elt F) ((c : Thread nD τ).loc cc0_stg0_0)) :
    ((View.loc (c : Thread nD τ) (Memref.whole cc0_stg0_0 : Memref sig .tc .vmem S1x512x1024 .f32).view ↦[(srcM c).view.set]{fullShare} f : sProp 𝕄))
      = (View.loc (c : Thread nD τ) (srcM c).view ↦[(srcM c).view.set]{fullShare} f : sProp 𝕄) := rfl

omit [FloatOps F] in
/-- The slab held whole is the sent rectangle (as the source view's own elements) and the rest, and back. -/
theorem slab_cut (c : Dev nD) (f : Buf (Elt F) ((c : Thread nD τ).loc cc0_stg0_0)) :
    (View.loc (c : Thread nD τ) (Memref.whole cc0_stg0_0 : Memref sig .tc .vmem S1x512x1024 .f32).view ↦{fullShare} f : sProp 𝕄)
      ⊣⊢ iprop((View.loc (c : Thread nD τ) (srcM c).view ↦[(srcM c).view.set]{fullShare} f)
          ∗ (View.loc (c : Thread nD τ) (Memref.whole cc0_stg0_0 : Memref sig .tc .vmem S1x512x1024 .f32).view ↦[Finset.univ \ (srcM c).view.set]{fullShare} f)) :=
  pointsTo_split_subset (ℓ := View.loc (c : Thread nD τ) (Memref.whole cc0_stg0_0 : Memref sig .tc .vmem S1x512x1024 .f32).view)
    (I := (srcM c).view.set) (S := Finset.univ) (q := fullShare) (f := f) (Finset.subset_univ _)

omit [FloatOps F] in
theorem hz : (![0, 0] : Fin 2 → Nat) = fun _ => 0 := funext fun a => by fin_cases a <;> rfl

/-- What the one store leaves in the result's staging buffer, whatever it held: the store's rectangle is the whole
    buffer, its payload the kept half of the slab plus the landing buffer read whole — the exchange's value. -/
theorem out_contents (c : Dev nD) (g1 : Buf (Elt F) ((c : Thread nD τ).loc cc0_stg1_0)) :
    (Memref.whole cc0_stg1_0 : Memref sig .tc .vmem S512x512 .f32).view.writes (Elt F) g1
      [⟨Rect.unit (s := S512x512) ![0, 0] S512x512.size inb_S512x512_S512x512_0_0,
        k0_pay1 (View.readAt (Elt F) (Memref.whole cc0_stg0_0 : Memref sig .tc .vmem S1x512x1024 .f32).view (keepR c).toLoadRect (xstg m c))
          (View.readAt (Elt F) (rM : Memref sig .tc .vmem S512x512 .f32).view (Rect.unit (s := S512x512) ![0, 0] S512x512.size inb_S512x512_S512x512_0_0).toLoadRect
            (sent (peer c) (xstg m (peer c))))⟩]
      = outAt m c := by
  have e : View.readAt (Elt F) (rM : Memref sig .tc .vmem S512x512 .f32).view (Rect.unit (s := S512x512) ![0, 0] S512x512.size inb_S512x512_S512x512_0_0).toLoadRect
      (sent (peer c) (xstg m (peer c))) = sent (peer c) (xstg m (peer c)) :=
    Memref.readAt_unit_zero (Elt F) cc0_scratch0 hz _ _
  rw [View.writes_singleton, e]
  exact Memref.write_access_unit_zero_univ (Elt F) cc0_stg1_0 hz _ g1 _

section Body

variable (K : Dev nD × Fin 3 → ℕ)

/-- The addressed transfer at the exchange's cells, to a target device `n` that is the peer (`hn`): the source rectangle is lent to the send
    cell's duty, the peer's landing buffer rewritten goes to the peer's receive duty, and what the device owed the
    peer's receive cell is paid. -/
theorem wp_send_peer (c n : Dev nD) (hn : n = peer c)
    {hsc : (Memref.whole cc0_scratch0 : Memref sig (Dev.tc n : Thread nD τ).2.kind .vmem S512x512 .f32).view.ref.isScScratch = false}
    {hsrc : (srcM c).view.WordExact} {hdst : (Memref.whole cc0_scratch0 : Memref sig .tc .vmem S512x512 .f32).view.WordExact}
    {hsem : DmaTarget.Typed .vmem (.dma recvS.sem) (.remote (Dev.tc n : Thread nD τ) (Memref.whole cc0_scratch0 : Memref sig .tc .vmem S512x512 .f32) (.dma sendS.sem) hsc)}
    {α : Type} {Q : α → sProp 𝕄} {k : PUnit → Prog (TpuEff nD τ sig (Elt F) Λ₀ .tc) α}
    (fn : Buf (Elt F) ((rM : Memref sig .tc .vmem S512x512 .f32).view.loc ((peer c : Dev nD) : Thread nD τ))) (W : Waits sig Unit) :
    iprop(cellInv ER (xchg m) (K (c, 1)) (sendCell c) ∗ cellInv ER (xchg m) (K (peer c, 2)) (recvCell (peer c))
        ∗ (View.loc (c : Thread nD τ) (srcM c).view ↦[(srcM c).view.set]{fullShare} xstg m c)
        ∗ (View.loc ((peer c : Dev nD) : Thread nD τ) (rM : Memref sig .tc .vmem S512x512 .f32).view ↦[(rM : Memref sig .tc .vmem S512x512 .f32).view.set]{fullShare} fn)
        ∗ owes (c : Thread nD τ) (tallyAt (recvCell (peer c)) () N) W
        ∗ dutyTok ER (sendCell c) 0 false ∗ reached ER (sendCell c) 0
        ∗ dutyTok ER (recvCell (peer c)) 0 false ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM c) (.remote (Dev.tc n : Thread nD τ) (Memref.whole cc0_scratch0 : Memref sig .tc .vmem S512x512 .f32) (.dma sendS.sem) hsc) (.dma recvS.sem) hsrc hdst hsem) k) Q) := by
  subst hn
  exact Rounds.wp_send_pointsTo 𝒱₀ ER (xchg m) (c : Thread nD τ) none (κ₁ := K (c, 1)) (κ₂ := K (peer c, 2))
    (r₁ := 0) (r₂ := 0) (d₁ := false) (d₂ := false) (fd := fn)
    (by rw [duties_send]; exact Finset.mem_singleton_self _) (by rw [duties_recv]; exact Finset.mem_singleton_self _)
    () () N rfl (amount_send m c false) (amount_recv m (peer c) false) 0 (by rw [zero_add]) (W := W)
    (by rw [payload_send]; unfold sendPay srcPts; exact BI.Entails.refl _)
    (by rw [payload_recv]; unfold recvPay scrPts; rw [landed_eq, peer_peer])

def bodyPre (c : Dev nD) : sProp 𝕄 :=
  iprop((ghost m K c ∗ cred (tallyAt (barCell c) () 1) ∗ cred (tallyAt (recvCell c) () N) ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m c ∗ (dats m ρ 0 c).owesAt () t₀.succ ∗ stg c cc0_stg0_0 (xstg m c) ∗ stg c cc0_stg1_0 (outAt m c))

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ scrPts
  -- the staged buffers, held through their memrefs' views
  ihave Hx := (Entails.of_eq (held_x (F := F) c _)) $$ Hx
  ihave Hout := (Entails.of_eq (held_o (F := F) c _)) $$ Hout
  -- the slab cut into the rectangle the transfer sends and the rest
  ihave Hx2 := (slab_cut (F := F) c _).1 $$ Hx
  icases Hx2 with ⟨Hsrc, Hrest⟩
  have hmwB := mayWait_bar (F := F) c
  sl_unfold [cc0_body]
  -- the signal to the peer's barrier cell and the wait on one's own: the peer's landing buffer comes with it
  set_option sl_exec.maxSteps 8 in sl_exec (disch := simp only [dev1_eq, dev2_eq])
  -- the transfer of the sent rectangle into the peer's landing buffer
  conv => { arg 2; pattern (Idealize.SL.Sem.wp _ _ _ _); arg 4; simp only [Prog.lift, Prog.bind_op, Prog.bind_ret, Prog.pure_eq_ret] }
  iapply (wp_send_peer m K c _ (dev2_eq c) HatB_pay1_v _) $$ [Hsrc HatB_pay1 HO HtS HtVP]
  · isplitr; · iexact HIsnd
    isplitr; · iexact HIrcvP
    isplitl [Hsrc]; · iexact Hsrc
    isplitl [HatB_pay1]; · iexact HatB_pay1
    isplitl [HO]; · iexact HO
    isplitl [HtS]; · iexact HtS
    isplitr; · iexact HrS
    isplitl [HtVP]; · iexact HtVP
    iexact HrVP
  iintro ⟨HcS, HO⟩
  -- the waits on the send cell (the rectangle back) and on the receive cell (what the peer sent)
  sl_exec
  -- the rectangle and the rest joined: the slab whole again
  ihave Hx := (slab_cut (F := F) c _).2 $$ [HatS_pay1 Hrest]
  · isplitl [HatS_pay1] <;> iassumption
  -- the two own cells have no later duty: closed, their counters are the device's again, at zero
  imod (Rounds.cell_close ER (xchg m) (Set.mem_univ (K (c, 1))) (fun h => h) (R := 1) (duties_later m (sendCell c))) $$ [HatS] with HzS
  · isplitr; · iexact HIsnd
    iexact HatS
  imod (Rounds.cell_close ER (xchg m) (Set.mem_univ (K (c, 2))) (fun h => h) (R := 1) (duties_later m (recvCell c))) $$ [HatV] with HzV
  · isplitr; · iexact HIrcv
    iexact HatV
  -- the kept half, the landing buffer, the sum stored
  sl_exec
  sl_step
  iapply Hk
  unfold bodyPost Φ₁ Dat.owesAt Pipeline.owesWithin
  rw [show (dats m ρ 0 c).owed t₀.succ = 0 from rfl]
  isplitl [HatV_pay1 HzS HzV]
  · isplitl [HatV_pay1]; · unfold scrPts; iexact HatV_pay1
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    ihave Hx' := (Entails.of_eq (held_x (F := F) c _).symm) $$ Hx
    iexact Hx'
  iexists _; isplitr; · (ipureintro; exact out_contents m c g1)
  ihave Hout' := (Entails.of_eq (held_o (F := F) c _).symm) $$ Hout
  iexact Hout'

set_option maxRecDepth 4000 in
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The body obligation on device `c`, at the one point. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Body

end Cert.Kernel.Exchange

end
-- ==== Proof.WordLaunch.lean ====
/-
  The launch: every device's body obligation becomes the run of the program on all 32 devices.

  The exchange's ghost state is made for all devices under one update: each device's three counters
  at zero become its three cells' invariants, and the duty tokens are dealt across the pairing — the
  token of a device's barrier duty and of its receive duty go to its peer, who pays them. The launch
  credit on a barrier cell is the one unit its peer owes it, on a receive cell the transfer's credit
  its peer owes it. The run's post names every windowed array's final contents.
-/
import proofs.«900591_g7700000000000592_dist_rs_v7x_xyz2x4x4_x_m512_n512_f32_1_alg».proof.Proof.WordBody

noncomputable section

namespace Cert.Kernel.Exchange

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xCells : Finset (GSem nD τ sig) := Finset.univ.map ⟨kcell, kcell_injective⟩

/-- A device's own cells' duty tokens as minted: (device, which cell). -/
abbrev tokOf (cj : Dev nD × Fin 3) : GSem nD τ sig × ℕ × Bool := (kcell cj, 0, false)
theorem tokOf_injective : Function.Injective (tokOf : Dev nD × Fin 3 → GSem nD τ sig × ℕ × Bool) :=
  fun a b h => kcell_injective (congrArg Prod.fst h)
def xToks : Finset (GSem nD τ sig × ℕ × Bool) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 :=
  iprop(dutyTok ER (barCell c) 0 false ∗ dutyTok ER (sendCell c) 0 false ∗ dutyTok ER (recvCell c) 0 false)

/-- What the launch element deals device `c`. -/
def G (c : Dev nD) : sProp 𝕄 :=
  iprop((bigSep Finset.univ fun k : Fin 3 => roundState ER (xchg m) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 3 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin3]; rfl
  iintro HX
  imod (Rounds.fund ER (xchg m) xCells xToks) $$ HX with ⟨Hst, Hr, Hat, Htok⟩
  imodintro
  ihave Hst' := (Entails.of_eq (hX fun g => roundState ER (xchg m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (xchg m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (xchg m) (kcell (c, k)) 0)
      ⊢ (|={Set.univ}=> bigSep Finset.univ fun k => iprop(∃ κ : ℕ, cellInv ER (xchg m) κ (kcell (c, k))) : sProp 𝕄) from by
        rw [← bigSep_sep']
        exact (bigSep_mono fun k _ => (Rounds.body_intro ER (xchg m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (xchg m) (K ck) (kcell ck))
    ∗ bigSep Finset.univ fun ck : Dev nD × Fin 3 => reached ER (kcell ck) 0)

instance records_persistent (K : Dev nD × Fin 3 → ℕ) : BI.Persistent (records m K) := by unfold records; infer_instance

omit [FloatOps F] in
theorem inv_at (K : Dev nD × Fin 3 → ℕ) (ck : Dev nD × Fin 3) :
    (bigSep Finset.univ fun ck : Dev nD × Fin 3 => (cellInv ER (xchg m) (K ck) (kcell ck) : sProp 𝕄)) ⊢ cellInv ER (xchg m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 false ∗ dutyTok ER (recvCell (peer c)) 0 false ∗ dutyTok ER (sendCell c) 0 false)
def linear (c : Dev nD) : sProp 𝕄 :=
  iprop((atPos ER (barCell c) 0 ∅ 0 ∗ atPos ER (sendCell c) 0 ∅ 0 ∗ atPos ER (recvCell c) 0 ∅ 0) ∗ payToks c)

omit [FloatOps F] in
theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across the pairing: a device's barrier token and receive token go to its peer. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 false : sProp 𝕄)),
    bigSep_univ_equiv pairing (fun c : Dev nD => (dutyTok ER (recvCell c) 0 false : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (xchg m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (xchg m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (xchg m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

omit [FloatOps F] in
/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if `d` is `c`'s peer. -/
theorem owed_bar (d c : Dev nD) : O₀ d (barCell c) () = if d = peer c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀
  rw [Pi.add_apply, Finsupp.add_apply, tallyAt_apply,
    tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### What the launch hands each device, and what the device hands back -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m c from rfl, scopedRest0_eq, ownSems0_eq]
  unfold Φ₁
  iintro ⟨Hr, HzS, HzV⟩
  isplitr; · iempintro
  isplitl [HzS HzV]
  · isplitl [HzS] <;> iassumption
  iexists (sent (peer c) (xstg m (peer c))); rw [← scrPts_eq]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of 32 devices, for any float values, from any memory with zero counters: every weakly fair
    execution of the program — the pairs handshaking on the barrier semaphore, then exchanging halves — terminates,
    and every final state has each device's windowed arrays at the computed contents. -/
theorem run_main : θ_run defs (onTc (τ := τ) (main (F := F))) (st₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Exchange.run_main' depends on axioms: [propext, Classical.choice, Quot.sound] -/
#guard_msgs in #print axioms run_main

/-! ### The final arrays -/

/-- The argument array after the run holds what it held. -/
theorem finalA_x (c : Dev nD) : finalA m ρ c (0 : Fin 2) = (st₀ m ρ).mem (win0_0.arr.view.loc (c : Thread nD τ)) :=
  (dats (F := F) m ρ 0 c).arrAt_in (0 : Fin 2) rfl _

end Cert.Kernel.Exchange

end
-- ==== Proof.WordFinals.lean ====
/-
  The windowed arrays after the one point of the grid. The input array is never written back: it
  still holds the launch contents. The output window's one block is the whole result array and is
  written back at the point, over every element: the result array then holds exactly what the
  body left, the device's kept half plus the half its peer sent.
-/
import proofs.«900591_g7700000000000592_dist_rs_v7x_xyz2x4x4_x_m512_n512_f32_1_alg».proof.Proof.WordProto
import Idealize.ShloMosaic.Lib.Pipeline.Cells

noncomputable section

namespace Cert.Kernel.Exchange

open Cert.Kernel Cert.Kernel.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- The input array after every point: the launch contents. -/
theorem arrAt_x (c : Dev nD) : (dats m ρ 0 c).arrAt (0 : Fin 2) cfg0.N = m ((c : Thread nD τ).loc main_arg0) := by
  rw [Dat.arrAt_in (dats m ρ 0 c) (0 : Fin 2) rfl]
  rfl

/-- The result array after the one point: the body's result, written over all of it. -/
theorem arrAt_out (c : Dev nD) : (dats m ρ 0 c).arrAt (1 : Fin 2) cfg0.N = outAt m c := by
  have h1 : (dats m ρ 0 c).arrAt (1 : Fin 2) 1 = outAt m c := by
    unfold Dat.arrAt
    rw [dif_pos (show 0 < cfg0.N by rw [cfg0_N]; exact Nat.one_pos), if_pos (flush0_1 _)]
    exact Memref.write_access_unit_zero_univ (Elt F) main_v1 (funext fun a => Nat.zero_mul _) _ _ _
  rw [cfg0_N]
  exact h1

end Cert.Kernel.Exchange

end

/-- info: 'Cert.Kernel.Exchange.arrAt_x' depends on axioms: [propext, Classical.choice, Quot.sound] -/
#guard_msgs in #print axioms Cert.Kernel.Exchange.arrAt_x
/-- info: 'Cert.Kernel.Exchange.arrAt_out' depends on axioms: [propext, Classical.choice, Quot.sound] -/
#guard_msgs in #print axioms Cert.Kernel.Exchange.arrAt_out
-- ==== Proof.WordRun.lean ====
/-
  The run with its post read at the program's own arrays: on every device the result array ends at the
  exchange's value `outAt m c` — the kept half of the device's slab plus the half its peer sent — and
  the argument array ends as it began. The one point's write-back is the whole result block, and an
  input window's array is never written.
-/
import proofs.«900591_g7700000000000592_dist_rs_v7x_xyz2x4x4_x_m512_n512_f32_1_alg».proof.Proof.WordLaunch
import proofs.«900591_g7700000000000592_dist_rs_v7x_xyz2x4x4_x_m512_n512_f32_1_alg».proof.Proof.WordFinals

noncomputable section

namespace Cert.Kernel.Exchange

open Cert.Kernel Cert.Kernel.Gen
open Idealize.ShloMosaic Idealize.ShloMosaic.TcCoe Idealize.SL.Sem

variable {F : FTy → Type} [FloatOps F]

/-- From any memory with zero counters every weakly fair execution on the 32 devices terminates, faults nowhere,
    and ends with each device's result at `outAt m c` and its argument unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  (θ_run defs _ _).mono (fun _ h c => ⟨(h c (1 : Fin 2)).trans (arrAt_out m ρ c), (h c (0 : Fin 2)).trans (arrAt_x m ρ c)⟩)
    (run_main m ρ)

/-- info: 'Cert.Kernel.Exchange.run' depends on axioms: [propext, Classical.choice, Quot.sound] -/
#guard_msgs in #print axioms run

end Cert.Kernel.Exchange

end
-- ==== Proof.Value.lean ====
/-
  The value of one exchange. Device `c` sits at first mesh coordinate `a = c / 16`; its slab is
  slab `a` of the whole input. It keeps columns `[512 a, 512 a + 512)` of its own slab and its
  peer (first coordinate `1 - a`) sends it the same columns of the peer's slab. Their sum is the
  sum over both slabs at those columns: the block of the reduced array that device `c` holds.
-/
import proofs.«900591_g7700000000000592_dist_rs_v7x_xyz2x4x4_x_m512_n512_f32_1_alg».proof.Proof.Contents
import proofs.«900591_g7700000000000592_dist_rs_v7x_xyz2x4x4_x_m512_n512_f32_1_alg».proof.Proof.Gen.ReferenceIdeal.Read
import Idealize.ShloMosaic.Lib.Layout
import Idealize.ShloMosaic.Lib.ValueLayout

noncomputable section

namespace Cert.KernelIdeal.Exchange

open Cert.KernelIdeal Cert.KernelIdeal.Gen
open Idealize.ShloMosaic Idealize.ShloMosaic.TcCoe Idealize.SL.Sem
open Idealize.ShloMosaic.ValueIdx

variable {F : FTy → Type} [FloatOps F]

/-! ## Rectangles of the slab, by coordinates -/

/-- A unit-stride rectangle of the slab that starts at 0 on axes 0 and 1 places `(u, i, j)` at
    `(0, i, off 2 + j)`. -/
theorem unit_idx_ix3 (off : Fin 3 → Nat) (inb : ∀ a, off a + S1x512x512.size a ≤ S1x512x1024.size a)
    (h0 : off 0 = 0) (h1 : off 1 = 0) (u : Fin 1) (i : Fin 512) (j : Fin 512) (k : Fin 1024)
    (hk : k.val = off 2 + j.val) :
    (Rect.unit (s := S1x512x1024) off S1x512x512.size inb).emb (ix3 u i j) = ix3 (0 : Fin 1) i k := by
  funext a
  apply Fin.ext
  match a with
  | ⟨0, _⟩ =>
    show off 0 + 1 * u.val = 0
    have := u.isLt; omega
  | ⟨1, _⟩ =>
    show off 1 + 1 * i.val = i.val
    omega
  | ⟨2, _⟩ =>
    show off 2 + 1 * j.val = k.val
    omega

/-- What device `c` sends, at `(i, j)`: its slab at `(0, i, 512 - 512 (c / 16) + j)`. -/
theorem sent_apply (c : Dev nD) (f : (cc0_stg0_0 : Ref sig .tc).ty.Contents (Elt F)) (i j : Fin 512) (k : Fin 1024)
    (hk : k.val = 512 - 512 * (c.val / 16) + j.val) :
    sent c f (ix2 i j) = f (ix3 (0 : Fin 1) i k) := by
  unfold sent
  rw [View.read_apply]
  have he : (srcM c).view.emb (ix2 i j) = ix3 (0 : Fin 1) i k := by
    show (sendR c).emb (Shape.reshapeEquiv _ (ix2 i j)) = _
    rw [reshapeEquiv_ix2_1ab]
    exact unit_idx_ix3 _ _ (by rw [k0_off1_eq]; rfl) (by rw [k0_off1_eq]; rfl) _ i j k
      (by rw [k0_off1_eq]; exact hk)
  rw [he]; rfl

/-- What device `c` keeps, at `(0, i, j)`: its slab at `(0, i, 512 (c / 16) + j)`. -/
theorem kept_apply (c : Dev nD) (f : (cc0_stg0_0 : Ref sig .tc).ty.Contents (Elt F)) (i j : Fin 512) (k : Fin 1024)
    (hk : k.val = 512 * (c.val / 16) + j.val) :
    kept c f (ix3 (0 : Fin 1) i j) = f (ix3 (0 : Fin 1) i k) := by
  unfold kept
  rw [View.readAt_apply, View.read_apply]
  have he : (xM : Memref sig .tc .vmem S1x512x1024 .f32).view.emb ((keepR c).toLoadRect.idx (ix3 (0 : Fin 1) i j))
      = ix3 (0 : Fin 1) i k :=
    unit_idx_ix3 _ _ (by rw [k0_off2_eq]; rfl) (by rw [k0_off2_eq]; rfl) _ i j k
      (by rw [k0_off2_eq]; exact hk)
  rw [he]; rfl

variable (m : (ℓ : Loc nD τ sig) → Buf (Elt F) ℓ)

/-- The staged slab is the argument array: the window's one block is all of it. -/
theorem xstg_eq (c : Dev nD) : xstg m c = m ((c : Thread nD τ).loc main_arg0) :=
  Memref.read_access_unit_zero (Elt F) main_arg0 (funext fun a => Nat.zero_mul _) _ _

/-! ## The mesh: where device `c`'s blocks lie -/

/-- Device `c`'s coordinate on mesh axis 0, as the block it holds of a dimension cut along that axis. -/
theorem lin_axis0 (c : Dev nD) : Layout.meshLin [2, 4, 4] c.val [0] = c.val / 16 := by revert c; decide

/-- The peer sits at the other coordinate of axis 0. -/
theorem peer_coord (c : Dev nD) : (peer c).val / 16 = 1 - c.val / 16 := by revert c; decide

theorem coord_lt (c : Dev nD) : c.val / 16 < 2 := by
  have h : c.val < 32 := c.isLt
  omega

/-- Device `c`'s argument block at `(u, i, k)` is the whole input at `(c / 16, i, k)`. -/
theorem argIdx (c : Dev nD) (a : Fin 2) (ha : a.val = c.val / 16) (u : Fin 1) (i : Fin 512) (k : Fin 1024)
    {kN : Fin 3 → Nat} (h : Layout.TilesN ⟨3, ![1, 512, 1024]⟩ ⟨3, ![2, 512, 1024]⟩ kN)
    (jb : (b : Fin 3) → Fin (kN b)) (h0 : (jb 0).val = c.val / 16) (h1 : (jb 1).val = 0) (h2 : (jb 2).val = 0) :
    h.idx jb (ix3 u i k) = ix3 a i k := by
  funext b
  apply Fin.ext
  match b with
  | ⟨0, _⟩ =>
    show (jb 0).val * 1 + u.val = a.val
    have := u.isLt; omega
  | ⟨1, _⟩ =>
    show (jb 1).val * 512 + i.val = i.val
    omega
  | ⟨2, _⟩ =>
    show (jb 2).val * 1024 + k.val = k.val
    omega

/-- Device `c`'s result block at `(i, j)` is the whole result at `(i, 512 (c / 16) + j)`. -/
theorem resIdx (c : Dev nD) (i j : Fin 512) (k : Fin 1024) (hk : k.val = 512 * (c.val / 16) + j.val)
    {kN : Fin 2 → Nat} (h : Layout.TilesN ⟨2, ![512, 512]⟩ ⟨2, ![512, 1024]⟩ kN)
    (jb : (b : Fin 2) → Fin (kN b)) (h0 : (jb 0).val = 0) (h1 : (jb 1).val = c.val / 16) :
    h.idx jb (ix2 i j) = ix2 i k := by
  funext b
  apply Fin.ext
  match b with
  | ⟨0, _⟩ =>
    show (jb 0).val * 512 + i.val = i.val
    omega
  | ⟨1, _⟩ =>
    show (jb 1).val * 512 + j.val = k.val
    omega

section Whole

variable (m : (ℓ : Loc nD τ sig) → Buf (Elt Ideal) ℓ)
  (X : Buf (Elt Ideal) (((0 : Dev Cert.ReferenceIdeal.nD).tc : Thread Cert.ReferenceIdeal.nD Cert.ReferenceIdeal.τ).loc Cert.ReferenceIdeal.main_arg0))
  (hm : ∀ c : Dev nD, m ((c.tc : Thread nD τ).loc main_arg0)
          = Layout.blockN ⟨3, ![1, 512, 1024]⟩ ⟨3, ![2, 512, 1024]⟩ (Layout.meshBlock [2, 4, 4] ![[0], [], []] c) X)

include hm in
/-- Device `c`'s staged slab at `(u, i, k)` is the whole input at `(c / 16, i, k)`. -/
theorem xstg_apply (c : Dev nD) (a : Fin 2) (ha : a.val = c.val / 16) (u : Fin 1) (i : Fin 512) (k : Fin 1024) :
    xstg m c (ix3 u i k) = X (ix3 a i k) := by
  rw [xstg_eq, hm c, Layout.blockN_apply]
  exact congrArg X (argIdx c a ha u i k _ _ (lin_axis0 c) rfl rfl)

end Whole

/-! ## The reference: the sum over the two slabs -/

/-- The reference's index map at `(i, k)` and slab `a` is `(a, i, k)`. -/
theorem idx_main_eq (i : Fin 512) (k : Fin 1024) (a : Fin 2) :
    Cert.ReferenceIdeal.Read.idx_main_v0 (ix2 i k) a = ix3 a i k := by
  funext b
  match b with
  | ⟨0, _⟩ => rfl
  | ⟨1, _⟩ => rfl
  | ⟨2, _⟩ => rfl

/-- The reduced array at `(i, k)`: the zero it starts from plus slab 0 and slab 1 there. -/
theorem ref_apply
    (X : Buf (Elt Ideal) (((0 : Dev Cert.ReferenceIdeal.nD).tc : Thread Cert.ReferenceIdeal.nD Cert.ReferenceIdeal.τ).loc Cert.ReferenceIdeal.main_arg0))
    (i : Fin 512) (k : Fin 1024) :
    Host.reduceAdd (F := Ideal) X (constant Cert.ReferenceIdeal.S_ .f32 0x00000000#32)
        Cert.ReferenceIdeal.Facts₀.reducesTo_S2x512x1024_S512x1024_d0 Cert.ReferenceIdeal.Facts₀.h_S_ (ix2 i k)
      = (0 : EReal) + ((show EReal from X (ix3 (0 : Fin 2) i k)) + (show EReal from X (ix3 (1 : Fin 2) i k))) := by
  rw [Cert.ReferenceIdeal.Read.val_main_v0_eq, Cert.ReferenceIdeal.Read.val_main_v0_apply, Fin.sum_univ_two,
    Cert.ReferenceIdeal.Read.val_main_cst_apply, Ideal.ofBits_def, Ideal.ofBits_zero_f32, idx_main_eq, idx_main_eq]

/-! ## The exchange's value -/

section Whole

variable (m : (ℓ : Loc nD τ sig) → Buf (Elt Ideal) ℓ)
  (X : Buf (Elt Ideal) (((0 : Dev Cert.ReferenceIdeal.nD).tc : Thread Cert.ReferenceIdeal.nD Cert.ReferenceIdeal.τ).loc Cert.ReferenceIdeal.main_arg0))
  (hm : ∀ c : Dev nD, m ((c.tc : Thread nD τ).loc main_arg0)
          = Layout.blockN ⟨3, ![1, 512, 1024]⟩ ⟨3, ![2, 512, 1024]⟩ (Layout.meshBlock [2, 4, 4] ![[0], [], []] c) X)

include hm in
/-- Device `c`'s result at `(i, j)`: its own slab plus its peer's, both at column `512 (c / 16) + j`. -/
theorem outAt_apply (c : Dev nD) (a a' : Fin 2) (ha : a.val = c.val / 16) (ha' : a'.val = 1 - c.val / 16)
    (i j : Fin 512) (k : Fin 1024) (hk : k.val = 512 * (c.val / 16) + j.val) :
    outAt (F := Ideal) m c (ix2 i j)
      = (show EReal from X (ix3 a i k)) + (show EReal from X (ix3 a' i k)) := by
  unfold outAt outOf k0_pay1
  rw [addf_apply, shapeCast_1ab_ab_apply, kept_apply c _ i j k hk,
    sent_apply (peer c) _ i j k (by rw [peer_coord]; have := coord_lt c; omega),
    xstg_apply m X hm c a ha, xstg_apply m X hm (peer c) a' (by rw [peer_coord, ha'])]

include hm in
theorem outAt_eq_block (c : Dev nD) :
    outAt (F := Ideal) m c
      = Layout.blockN ⟨2, ![512, 512]⟩ ⟨2, ![512, 1024]⟩ (Layout.meshBlock [2, 4, 4] ![[], [0]] c)
          (Host.reduceAdd (F := Ideal) X (constant Cert.ReferenceIdeal.S_ .f32 0x00000000#32)
            Cert.ReferenceIdeal.Facts₀.reducesTo_S2x512x1024_S512x1024_d0 Cert.ReferenceIdeal.Facts₀.h_S_) := by
  funext x
  obtain ⟨i, j, rfl⟩ : ∃ i j, x = ix2 i j := ⟨x 0, x 1, eq_ix2 x⟩
  have hc := coord_lt c
  have hj := j.isLt
  let k : Fin 1024 := ⟨512 * (c.val / 16) + j.val, by omega⟩
  have hk : k.val = 512 * (c.val / 16) + j.val := rfl
  rw [Layout.blockN_apply, resIdx c i j k hk _ _ rfl (lin_axis0 c), ref_apply X i k]
  rcases Nat.lt_succ_iff_lt_or_eq.mp hc with h0 | h1
  · have h0 : c.val / 16 = 0 := by omega
    rw [outAt_apply m X hm c 0 1 (by rw [h0]; rfl) (by rw [h0]; rfl) i j k hk, zero_add]
  · rw [outAt_apply m X hm c 1 0 (by rw [h1]; rfl) (by rw [h1]; rfl) i j k hk, zero_add]
    exact add_comm (G := EReal) _ _

end Whole

end Cert.KernelIdeal.Exchange

end

/-- info: 'Cert.KernelIdeal.Exchange.outAt_eq_block' depends on axioms: [propext, Classical.choice, Quot.sound] -/
#guard_msgs in #print axioms Cert.KernelIdeal.Exchange.outAt_eq_block
-- ==== Proof.lean ====
/-
  The five claims.

  Both printed kernels are one exchange between the two devices of a pair (the mesh's first coordinate
  flipped): a handshake on the barrier semaphore, one remote copy of the half of the slab the peer's
  block of the result needs, then the kept half plus the received half. The run of the program on all 32
  devices, with every result named (`Exchange.run`), gives each kernel's frame by dropping the value, at
  the word-level instance and at the ideal one. The reference is one sum over the leading axis; its run is
  the generated one. The ideal pass rewrote nothing. At the ideal instance device `c`'s result — its
  slab's columns of its block plus its peer's slab's same columns — is its block of the reference's sum,
  by commutativity of the extended reals' addition (`outAt_eq_block`).
-/
import proofs.«900591_g7700000000000592_dist_rs_v7x_xyz2x4x4_x_m512_n512_f32_1_alg».proof.Defs
import proofs.«900591_g7700000000000592_dist_rs_v7x_xyz2x4x4_x_m512_n512_f32_1_alg».proof.Proof.Gen.Kernel
import proofs.«900591_g7700000000000592_dist_rs_v7x_xyz2x4x4_x_m512_n512_f32_1_alg».proof.Proof.Gen.KernelIdeal
import proofs.«900591_g7700000000000592_dist_rs_v7x_xyz2x4x4_x_m512_n512_f32_1_alg».proof.Proof.Gen.ReferenceIdeal
import proofs.«900591_g7700000000000592_dist_rs_v7x_xyz2x4x4_x_m512_n512_f32_1_alg».proof.Proof.Gen.ReferenceIdeal.Run
import proofs.«900591_g7700000000000592_dist_rs_v7x_xyz2x4x4_x_m512_n512_f32_1_alg».proof.Proof.Gen.ReferenceIdeal.Read
import proofs.«900591_g7700000000000592_dist_rs_v7x_xyz2x4x4_x_m512_n512_f32_1_alg».proof.Proof.Gen.Pre_finite_inputs_Kernel
import proofs.«900591_g7700000000000592_dist_rs_v7x_xyz2x4x4_x_m512_n512_f32_1_alg».proof.Proof.Gen.Pre_finite_inputs_ReferenceIdeal
import proofs.«900591_g7700000000000592_dist_rs_v7x_xyz2x4x4_x_m512_n512_f32_1_alg».proof.Proof.Run
import proofs.«900591_g7700000000000592_dist_rs_v7x_xyz2x4x4_x_m512_n512_f32_1_alg».proof.Proof.WordRun
import proofs.«900591_g7700000000000592_dist_rs_v7x_xyz2x4x4_x_m512_n512_f32_1_alg».proof.Proof.Value
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun _ h c => (h c).2) (Cert.Kernel.Exchange.run (F := Bits) m ρ)

theorem frame_ki : Cert.frame_KernelIdeal := fun m ρ _ =>
  (θ_run Cert.KernelIdeal.defs _ _).mono (fun _ h c => (h c).2) (Cert.KernelIdeal.Exchange.run (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- Both programs run; the reference's sum is the value of which every device's result is its block. -/
theorem algebraic : Cert.algebraic_KernelIdeal_ReferenceIdeal := by
  intro m ρ m' ρ' _ hagree
  refine ⟨_, ?_, (θ_run Cert.ReferenceIdeal.defs _ _).mono (fun _ h => ⟨(h 0).1, (h 0).2⟩)
    (Cert.ReferenceIdeal.Value.run (F := Ideal) m' ρ')⟩
  exact (θ_run Cert.KernelIdeal.defs _ _).mono
    (fun _ h c => ⟨(h c).1.trans (Cert.KernelIdeal.Exchange.outAt_eq_block m _ hagree c), (h c).2⟩)
    (Cert.KernelIdeal.Exchange.run (F := Ideal) m ρ)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
